-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x100 : Shape := ⟨2, ![800000, 100]⟩
abbrev S100x200 : Shape := ⟨2, ![100, 200]⟩
abbrev S200 : Shape := ⟨1, ![200]⟩
abbrev S200x100 : Shape := ⟨2, ![200, 100]⟩
abbrev S100 : Shape := ⟨1, ![100]⟩
abbrev S50000 : Shape := ⟨1, ![50000]⟩
abbrev S800000 : Shape := ⟨1, ![800000]⟩
abbrev S_ : Shape := ⟨0, ![]⟩

class Facts : Prop where
  bcast_S_S800000x100 : S_.BroadcastsInDim S800000x100 (![] : Fin 0 → Fin S800000x100.rank)
  reducesTo_S800000x100_S_d0_1 : S800000x100.ReducesTo [0, 1] S_
  h_S_ : 0 < S_.numel
  bcast_S_S100x200 : S_.BroadcastsInDim S100x200 (![] : Fin 0 → Fin S100x200.rank)
  reducesTo_S100x200_S_d0_1 : S100x200.ReducesTo [0, 1] S_
  bcast_S_S200 : S_.BroadcastsInDim S200 (![] : Fin 0 → Fin S200.rank)
  reducesTo_S200_S_d0 : S200.ReducesTo [0] S_
  bcast_S_S200x100 : S_.BroadcastsInDim S200x100 (![] : Fin 0 → Fin S200x100.rank)
  reducesTo_S200x100_S_d0_1 : S200x100.ReducesTo [0, 1] S_
  bcast_S_S100 : S_.BroadcastsInDim S100 (![] : Fin 0 → Fin S100.rank)
  reducesTo_S100_S_d0 : S100.ReducesTo [0] S_
  bcast_S_S50000 : S_.BroadcastsInDim S50000 (![] : Fin 0 → Fin S50000.rank)
  reducesTo_S50000_S_d0 : S50000.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg6 : IVec S800000 32) (main_v30 : IVec S_ 1) (main_v32 : IVec S800000 1) (main_c_12 : IVec S_ 32) : IVec S_ 1 :=
  let main_v33 : IVec S800000 32 := broadcastInDim S800000 ![] bcast_S_S800000 main_c_12
  let main_v34 : IVec S800000 1 := cmpi .slt main_arg6 main_v33
  let main_v35 : IVec S800000 1 := andi main_v32 main_v34
  let main_c_13 : IVec S_ 1 := constantI S_ 1 1#1
  let main_v36 : IVec S_ 1 := (fun x v => Host.reduce IntOp.andi x v reducesTo_S800000_S_d0 h_S_) main_v35 main_c_13
  let main_v37 : IVec S_ 1 := andi main_v30 main_v36
  main_v37

def fn_part1 {F : FTy → Type} [FloatOps F] (main_arg4 : FVec F S100 .f32) (main_arg5 : IVec S50000 32) (main_arg6 : IVec S800000 32) (main_v13 : IVec S_ 1) (main_v16 : IVec S200x100 1) : IVec S_ 1 :=
  let main_c_5 : IVec S_ 1 := constantI S_ 1 1#1
  let main_v17 : IVec S_ 1 := (fun x v => Host.reduce IntOp.andi x v reducesTo_S200x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_c_8 : IVec S_ 32 := constantI S_ 32 0#32
  let main_v24 : IVec S50000 32 := broadcastInDim S50000 ![] bcast_S_S50000 main_c_8
  let main_v25 : IVec S50000 1 := cmpi .sge main_arg5 main_v24
  let main_c_9 : IVec S_ 32 := constantI S_ 32 800000#32
  let main_v26 : IVec S50000 32 := broadcastInDim S50000 ![] bcast_S_S50000 main_c_9
  let main_v27 : IVec S50000 1 := cmpi .slt main_arg5 main_v26
  let main_v28 : IVec S50000 1 := andi main_v25 main_v27
  let main_c_10 : IVec S_ 1 := constantI S_ 1 1#1
  let main_v29 : IVec S_ 1 := (fun x v => Host.reduce IntOp.andi x v reducesTo_S50000_S_d0 h_S_) main_v28 main_c_10
  let main_v30 : IVec S_ 1 := andi main_v23 main_v29
  let main_c_11 : IVec S_ 32 := constantI S_ 32 0#32
  let main_v31 : IVec S800000 32 := broadcastInDim S800000 ![] bcast_S_S800000 main_c_11
  let main_v32 : IVec S800000 1 := cmpi .sge main_arg6 main_v31
  let main_c_12 : IVec S_ 32 := constantI S_ 32 50000#32
  fn_part2 (F := F) main_arg6 main_v30 main_v32 main_c_12

def fn {F : FTy → Type} [FloatOps F] (main_arg0 : FVec F S800000x100 .f32) (main_arg1 : FVec F S100x200 .f32) (main_arg2 : FVec F S200 .f32) (main_arg3 : FVec F S200x100 .f32) (main_arg4 : FVec F S100 .f32) (main_arg5 : IVec S50000 32) (main_arg6 : IVec S800000 32) (main_arg7 : IVec S800000 32) : IVec S_ 1 :=
  let main_v0 : FVec F S800000x100 .f32 := Host.absf main_arg0
  let main_cst : FVec F S_ .f32 := constant S_ .f32 0x7F800000#32
  let main_v1 : FVec F S800000x100 .f32 := broadcastInDim S800000x100 ![] bcast_S_S800000x100 main_cst
  let main_v2 : IVec S800000x100 1 := cmpf .olt main_v0 main_v1
  let main_c : IVec S_ 1 := constantI S_ 1 1#1
  let main_v3 : IVec S_ 1 := (fun x v => Host.reduce IntOp.andi x v reducesTo_S800000x100_S_d0_1 h_S_) main_v2 main_c
  let main_v4 : FVec F S100x200 .f32 := Host.absf main_arg1
  let main_cst_0 : FVec F S_ .f32 := constant S_ .f32 0x7F800000#32
  let main_v5 : FVec F S100x200 .f32 := broadcastInDim S100x200 ![] bcast_S_S100x200 main_cst_0
  let main_v6 : IVec S100x200 1 := cmpf .olt main_v4 main_v5
  let main_c_1 : IVec S_ 1 := constantI S_ 1 1#1
  let main_v7 : IVec S_ 1 := (fun x v => Host.reduce IntOp.andi x v reducesTo_S100x200_S_d0_1 h_S_) main_v6 main_c_1
  let main_v8 : IVec S_ 1 := andi main_v3 main_v7
  let main_v9 : FVec F S200 .f32 := Host.absf main_arg2
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S200x100 .f32 := Host.absf main_arg3
  let main_cst_4 : FVec F S_ .f32 := constant S_ .f32 0x7F800000#32
  let main_v15 : FVec F S200x100 .f32 := broadcastInDim S200x100 ![] bcast_S_S200x100 main_cst_4
  let main_v16 : IVec S200x100 1 := cmpf .olt main_v14 main_v15
  fn_part1 (F := F) main_arg4 main_arg5 main_arg6 main_v13 main_v16
-- ==== Kernel.lean ====
abbrev S800000x100 : Shape := ⟨2, ![800000, 100]⟩
abbrev S100x200 : Shape := ⟨2, ![100, 200]⟩
abbrev S200 : Shape := ⟨1, ![200]⟩
abbrev S200x100 : Shape := ⟨2, ![200, 100]⟩
abbrev S100 : Shape := ⟨1, ![100]⟩
abbrev S50000 : Shape := ⟨1, ![50000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S50000x100 : Shape := ⟨2, ![50000, 100]⟩
abbrev S100x256 : Shape := ⟨2, ![100, 256]⟩
abbrev S256 : Shape := ⟨1, ![256]⟩
abbrev S1x256 : Shape := ⟨2, ![1, 256]⟩
abbrev S50000x256 : Shape := ⟨2, ![50000, 256]⟩
abbrev S5000x100 : Shape := ⟨2, ![5000, 100]⟩
abbrev S5000x256 : Shape := ⟨2, ![5000, 256]⟩
abbrev S256x100 : Shape := ⟨2, ![256, 100]⟩
abbrev S1x100 : Shape := ⟨2, ![1, 100]⟩

abbrev nBuf : Space → Nat
  | .hbm => 98
  | .vmem => 16
  | .smem => 0
  | _ => 0

abbrev bufTy : (tb : Table) → Fin (tcTables nBuf tb) → BufTy
  | .hbm, ⟨0, _⟩ => ⟨S800000x100, .f32⟩
  | .hbm, ⟨1, _⟩ => ⟨S100x200, .f32⟩
  | .hbm, ⟨2, _⟩ => ⟨S200, .f32⟩
  | .hbm, ⟨3, _⟩ => ⟨S200x100, .f32⟩
  | .hbm, ⟨4, _⟩ => ⟨S100, .f32⟩
  | .hbm, ⟨5, _⟩ => ⟨S50000, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S1, .i32⟩
  | .hbm, ⟨17, _⟩ => ⟨S_, .i32⟩
  | .hbm, ⟨18, _⟩ => ⟨S800000x1, .i32⟩
  | .hbm, ⟨19, _⟩ => ⟨S800000x1, .i1⟩
  | .hbm, ⟨20, _⟩ => ⟨S1x1, .i32⟩
  | .hbm, ⟨21, _⟩ => ⟨S800000x1, .i32⟩
  | .hbm, ⟨22, _⟩ => ⟨S800000x1, .i1⟩
  | .hbm, ⟨23, _⟩ => ⟨S800000x1, .i1⟩
  | .hbm, ⟨24, _⟩ => ⟨S_, .i1⟩
  | .hbm, ⟨25, _⟩ => ⟨S800000, .i1⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S1, .i32⟩
  | .hbm, ⟨39, _⟩ => ⟨S_, .i32⟩
  | .hbm, ⟨40, _⟩ => ⟨S800000x1, .i32⟩
  | .hbm, ⟨41, _⟩ => ⟨S800000x1, .i1⟩
  | .hbm, ⟨42, _⟩ => ⟨S1x1, .i32⟩
  | .hbm, ⟨43, _⟩ => ⟨S800000x1, .i32⟩
  | .hbm, ⟨44, _⟩ => ⟨S800000x1, .i1⟩
  | .hbm, ⟨45, _⟩ => ⟨S800000x1, .i1⟩
  | .hbm, ⟨46, _⟩ => ⟨S_, .i1⟩
  | .hbm, ⟨47, _⟩ => ⟨S800000, .i1⟩
  | .hbm, ⟨48, _⟩ => ⟨S800000x100, .f32⟩
  | .hbm, ⟨49, _⟩ => ⟨S800000x100, .i1⟩
  | .hbm, ⟨50, _⟩ => ⟨S_, .f32⟩
  | .hbm, ⟨51, _⟩ => ⟨S800000x100, .f32⟩
  | .hbm, ⟨52, _⟩ => ⟨S800000x100, .f32⟩
  | .hbm, ⟨53, _⟩ => ⟨S_, .f32⟩
  | .hbm, ⟨54, _⟩ => ⟨S50000x100, .f32⟩
  | .hbm, ⟨55, _⟩ => ⟨S800000x1, .i32⟩
  | .hbm, ⟨56, _⟩ => ⟨S50000x100, .f32⟩
  | .hbm, ⟨57, _⟩ => ⟨S_, .i32⟩
  | .hbm, ⟨58, _⟩ => ⟨S_, .f32⟩
  | .hbm, ⟨59, _⟩ => ⟨S100x256, .f32⟩
  | .hbm, ⟨60, _⟩ => ⟨S_, .i32⟩
  | .hbm, ⟨61, _⟩ => ⟨S_, .f32⟩
  | .hbm, ⟨62, _⟩ => ⟨S256, .f32⟩
  | .hbm, ⟨63, _⟩ => ⟨S1x256, .f32⟩
  | .hbm, ⟨64, _⟩ => ⟨S50000x256, .f32⟩
  | .hbm, ⟨65, _⟩ => ⟨S_, .i32⟩
  | .hbm, ⟨66, _⟩ => ⟨S_, .f32⟩
  | .hbm, ⟨67, _⟩ => ⟨S256x100, .f32⟩
  | .hbm, ⟨68, _⟩ => ⟨S50000x100, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S1, .i32⟩
  | .hbm, ⟨78, _⟩ => ⟨S_, .i32⟩
  | .hbm, ⟨79, _⟩ => ⟨S800000x1, .i32⟩
  | .hbm, ⟨80, _⟩ => ⟨S800000x1, .i1⟩
  | .hbm, ⟨81, _⟩ => ⟨S1x1, .i32⟩
  | .hbm, ⟨82, _⟩ => ⟨S800000x1, .i32⟩
  | .hbm, ⟨83, _⟩ => ⟨S800000x1, .i1⟩
  | .hbm, ⟨84, _⟩ => ⟨S800000x1, .i1⟩
  | .hbm, ⟨85, _⟩ => ⟨S_, .i1⟩
  | .hbm, ⟨86, _⟩ => ⟨S800000, .i1⟩
  | .hbm, ⟨87, _⟩ => ⟨S800000x100, .f32⟩
  | .hbm, ⟨88, _⟩ => ⟨S800000x100, .i1⟩
  | .hbm, ⟨89, _⟩ => ⟨S_, .f32⟩
  | .hbm, ⟨90, _⟩ => ⟨S800000x100, .f32⟩
  | .hbm, ⟨91, _⟩ => ⟨S800000x100, .f32⟩
  | .hbm, ⟨92, _⟩ => ⟨S_, .f32⟩
  | .hbm, ⟨93, _⟩ => ⟨S50000x100, .f32⟩
  | .hbm, ⟨94, _⟩ => ⟨S800000x1, .i32⟩
  | .hbm, ⟨95, _⟩ => ⟨S50000x100, .f32⟩
  | .hbm, ⟨96, _⟩ => ⟨S1x100, .f32⟩
  | .hbm, ⟨97, _⟩ => ⟨S50000x100, .f32⟩
  | .local _ .vmem, ⟨0, _⟩ => ⟨S5000x100, .f32⟩
  | .local _ .vmem, ⟨1, _⟩ => ⟨S5000x100, .f32⟩
  | .local _ .vmem, ⟨2, _⟩ => ⟨S100x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x100, .f32⟩
  | .local _ .vmem, ⟨9, _⟩ => ⟨S5000x100, .f32⟩
  | .local _ .vmem, ⟨10, _⟩ => ⟨S5000x100, .f32⟩
  | .local _ .vmem, ⟨11, _⟩ => ⟨S5000x100, .f32⟩
  | .local _ .vmem, ⟨12, _⟩ => ⟨S5000x100, .f32⟩
  | .local _ .vmem, ⟨13, _⟩ => ⟨S1x100, .f32⟩
  | .local _ .vmem, ⟨14, _⟩ => ⟨S5000x100, .f32⟩
  | .local _ .vmem, ⟨15, _⟩ => ⟨S5000x100, .f32⟩
  | _, _ => ⟨S800000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_c_4 : Ref sig .tc := ⟨.hbm, 27, rfl⟩
abbrev main_call0_v14 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_cst : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_c : Ref sig .tc := ⟨.hbm, 57, rfl⟩
abbrev main_call2_v0 : Ref sig .tc := ⟨.hbm, 58, rfl⟩
abbrev main_v5 : Ref sig .tc := ⟨.hbm, 59, rfl⟩
abbrev main_c_0 : Ref sig .tc := ⟨.hbm, 60, rfl⟩
abbrev main_call3_v0 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_c_1 : Ref sig .tc := ⟨.hbm, 65, rfl⟩
abbrev main_call4_v0 : Ref sig .tc := ⟨.hbm, 66, rfl⟩
abbrev main_v9 : Ref sig .tc := ⟨.hbm, 67, rfl⟩
abbrev main_v10 : Ref sig .tc := ⟨.hbm, 68, rfl⟩
abbrev main_call5_c : Ref sig .tc := ⟨.hbm, 69, rfl⟩
abbrev main_call5_v0 : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_c_1 : Ref sig .tc := ⟨.hbm, 77, rfl⟩
abbrev main_call5_c_2 : Ref sig .tc := ⟨.hbm, 78, rfl⟩
abbrev main_call5_v6 : Ref sig .tc := ⟨.hbm, 79, rfl⟩
abbrev main_call5_v7 : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_c_3 : Ref sig .tc := ⟨.hbm, 85, rfl⟩
abbrev main_call5_v12 : Ref sig .tc := ⟨.hbm, 86, rfl⟩
abbrev main_call5_v13 : Ref sig .tc := ⟨.hbm, 87, rfl⟩
abbrev main_call5_v14 : Ref sig .tc := ⟨.hbm, 88, rfl⟩
abbrev main_call5_cst : Ref sig .tc := ⟨.hbm, 89, rfl⟩
abbrev main_call5_v15 : Ref sig .tc := ⟨.hbm, 90, rfl⟩
abbrev main_v11 : Ref sig .tc := ⟨.hbm, 91, rfl⟩
abbrev main_cst_2 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x100_0 : S800000.BroadcastsInDim S800000x100 (![0] : Fin 1 → Fin S800000x100.rank)
  bcast_S_S800000x100 : S_.BroadcastsInDim S800000x100 (![] : Fin 0 → Fin S800000x100.rank)
  bcast_S_S50000x100 : S_.BroadcastsInDim S50000x100 (![] : Fin 0 → Fin S50000x100.rank)
  pads_S100x200_S100x256_000_0560 : S100x200.Pads (![0, 0] : Fin 2 → Nat) ![0, 56] ![0, 0] S100x256
  pads_S200_S256_0560 : S200.Pads (![0] : Fin 1 → Nat) ![56] ![0] S256
  shapeCasts_S256_S1x256 : S256.ShapeCasts S1x256
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  shapeCasts_S100x256_S100x256 : S100x256.ShapeCasts S100x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  pads_S200x100_S256x100_0560_000 : S200x100.Pads (![0, 0] : Fin 2 → Nat) ![56, 0] ![0, 0] S256x100
  shapeCasts_S5000x256_S5000x256 : S5000x256.ShapeCasts S5000x256
  inb_S256x100_S256x100_0_0 : ∀ a, (![0, 0] : Fin 2 → Nat) a + S256x100.size a ≤ S256x100.size a
  h_S256x100 : 0 < S256x100.numel
  shapeCasts_S256x100_S256x100 : S256x100.ShapeCasts S256x100
  shapeCasts_S100_S1x100 : S100.ShapeCasts S1x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  gather_S50000_S800000x1_S800000_n_0_n_n_0_1_1_wf : GatherDims.WF S50000 S800000x1 S800000 [] [0] [] [0] [] 1 ![1]
  gather_S800000x100_S800000x1_S800000x100_1_0_n_n_0_1_1100_wf : GatherDims.WF S800000x100 S800000x1 S800000x100 [1] [0] [] [0] [] 1 ![1, 100]
  scatter_S50000x100_S800000x1_S800000x100_1_0_0_1_wf : ScatterDims.WF S50000x100 S800000x1 S800000x100 [1] [0] [0] 1
  dot_S5000x100_S100x256_S5000x256_1_0_0_1_n_n_wf : DotDims.WF S5000x100 S100x256 S5000x256 [1] [0] [0] [1] [] []
  dot_S5000x256_S256x100_S5000x100_1_0_0_1_n_n_wf : DotDims.WF S5000x256 S256x100 S5000x100 [1] [0] [0] [1] [] []
  gather_S50000x100_S800000x1_S800000x100_1_0_n_n_0_1_1100_wf : GatherDims.WF S50000x100 S800000x1 S800000x100 [1] [0] [] [0] [] 1 ![1, 100]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x256.size a ≤ S100x256.size a
  hwx0_1 : ∀ i : grid0.Coords, EltTy.bits .f32 = 32 ∨ (Rect.block (s := S100x256) S100x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x100.size a ≤ S256x100.size a
  hwx1_1 : ∀ i : grid1.Coords, EltTy.bits .f32 = 32 ∨ (Rect.block (s := S256x100) S256x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x100.size a ≤ S50000x100.size a
  hwx1_2 : ∀ i : grid1.Coords, EltTy.bits .f32 = 32 ∨ (Rect.block (s := S50000x100) S5000x100.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S50000x100.size a
  hwx2_0 : ∀ i : grid2.Coords, EltTy.bits .f32 = 32 ∨ (Rect.block (s := S50000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x100.size a ≤ S1x100.size a
  hwx2_1 : ∀ i : grid2.Coords, EltTy.bits .f32 = 32 ∨ (Rect.block (s := S1x100) S1x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x100.size a ≤ S50000x100.size a
  hwx2_2 : ∀ i : grid2.Coords, EltTy.bits .f32 = 32 ∨ (Rect.block (s := S50000x100) S5000x100.size (cc2_transform_2 i) (hinb2_2 i)).WholeWords (EltTy.packing .f32)

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S800000x100_S800000x1_S800000x100_1_0_n_n_0_1_1100 : GatherDims S800000x100 S800000x1 S800000x100 where
  offsetDims := [1]
  collapsedSliceDims := [0]
  operandBatchingDims := []
  startIndicesBatchingDims := []
  startIndexMap := [0]
  indexVectorDim := 1
  sliceSizes := ![1, 100]
  wf := gather_S800000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x256_S5000x256_1_0_0_1_n_n : DotDims S5000x100 S100x256 S5000x256 where
  lhsContracting := [1]
  rhsContracting := [0]
  lhsNonContracting := [0]
  rhsNonContracting := [1]
  lhsBatch := []
  rhsBatch := []
  wf := dot_S5000x100_S100x256_S5000x256_1_0_0_1_n_n_wf
def dot_S5000x256_S256x100_S5000x100_1_0_0_1_n_n : DotDims S5000x256 S256x100 S5000x100 where
  lhsContracting := [1]
  rhsContracting := [0]
  lhsNonContracting := [0]
  rhsNonContracting := [1]
  lhsBatch := []
  rhsBatch := []
  wf := dot_S5000x256_S256x100_S5000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf

abbrev win0_0 : Pipeline.Window sig grid0 :=
  Pipeline.Window.ofSpec (Memref.whole main_v4) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S100x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S256x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x100.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S800000x100 : Shape := ⟨2, ![800000, 100]⟩
abbrev S100x200 : Shape := ⟨2, ![100, 200]⟩
abbrev S200 : Shape := ⟨1, ![200]⟩
abbrev S200x100 : Shape := ⟨2, ![200, 100]⟩
abbrev S100 : Shape := ⟨1, ![100]⟩
abbrev S50000 : Shape := ⟨1, ![50000]⟩
abbrev S800000 : Shape := ⟨1, ![800000]⟩
abbrev S_ : Shape := ⟨0, ![]⟩
abbrev S50000x1 : Shape := ⟨2, ![50000, 1]⟩
abbrev S50000x100 : Shape := ⟨2, ![50000, 100]⟩
abbrev S800000x1 : Shape := ⟨2, ![800000, 1]⟩
abbrev S50000x200 : Shape := ⟨2, ![50000, 200]⟩
abbrev S1x200 : Shape := ⟨2, ![1, 200]⟩
abbrev S800000x200 : Shape := ⟨2, ![800000, 200]⟩
abbrev S1x100 : Shape := ⟨2, ![1, 100]⟩

abbrev nBuf : Space → Nat
  | .hbm => 57
  | .vmem => 0
  | .smem => 0
  | _ => 0

abbrev bufTy : (tb : Table) → Fin (tcTables nBuf tb) → BufTy
  | .hbm, ⟨0, _⟩ => ⟨S800000x100, .f32⟩
  | .hbm, ⟨1, _⟩ => ⟨S100x200, .f32⟩
  | .hbm, ⟨2, _⟩ => ⟨S200, .f32⟩
  | .hbm, ⟨3, _⟩ => ⟨S200x100, .f32⟩
  | .hbm, ⟨4, _⟩ => ⟨S100, .f32⟩
  | .hbm, ⟨5, _⟩ => ⟨S50000, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S50000, .i32⟩
  | .hbm, ⟨10, _⟩ => ⟨S50000, .i1⟩
  | .hbm, ⟨11, _⟩ => ⟨S_, .i32⟩
  | .hbm, ⟨12, _⟩ => ⟨S50000, .i32⟩
  | .hbm, ⟨13, _⟩ => ⟨S50000, .i32⟩
  | .hbm, ⟨14, _⟩ => ⟨S50000, .i32⟩
  | .hbm, ⟨15, _⟩ => ⟨S50000x1, .i32⟩
  | .hbm, ⟨16, _⟩ => ⟨S50000x100, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x100, .f32⟩
  | .hbm, ⟨26, _⟩ => ⟨S_, .f32⟩
  | .hbm, ⟨27, _⟩ => ⟨S50000x100, .f32⟩
  | .hbm, ⟨28, _⟩ => ⟨S800000x1, .i32⟩
  | .hbm, ⟨29, _⟩ => ⟨S50000x100, .f32⟩
  | .hbm, ⟨30, _⟩ => ⟨S50000x200, .f32⟩
  | .hbm, ⟨31, _⟩ => ⟨S1x200, .f32⟩
  | .hbm, ⟨32, _⟩ => ⟨S50000x200, .f32⟩
  | .hbm, ⟨33, _⟩ => ⟨S50000x200, .f32⟩
  | .hbm, ⟨34, _⟩ => ⟨S_, .f32⟩
  | .hbm, ⟨35, _⟩ => ⟨S50000x200, .f32⟩
  | .hbm, ⟨36, _⟩ => ⟨S50000x200, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x200, .f32⟩
  | .hbm, ⟨46, _⟩ => ⟨S_, .f32⟩
  | .hbm, ⟨47, _⟩ => ⟨S50000x200, .f32⟩
  | .hbm, ⟨48, _⟩ => ⟨S800000x1, .i32⟩
  | .hbm, ⟨49, _⟩ => ⟨S50000x200, .f32⟩
  | .hbm, ⟨50, _⟩ => ⟨S50000x100, .f32⟩
  | .hbm, ⟨51, _⟩ => ⟨S1x100, .f32⟩
  | .hbm, ⟨52, _⟩ => ⟨S50000x100, .f32⟩
  | .hbm, ⟨53, _⟩ => ⟨S50000x100, .f32⟩
  | .hbm, ⟨54, _⟩ => ⟨S_, .f32⟩
  | .hbm, ⟨55, _⟩ => ⟨S50000x100, .f32⟩
  | .hbm, ⟨56, _⟩ => ⟨S50000x100, .f32⟩
  | _, _ => ⟨S800000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S50000x200 : S_.BroadcastsInDim S50000x200 (![] : Fin 0 → Fin S50000x200.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  gather_S800000x100_S50000x1_S50000x100_1_0_n_n_0_1_1100_wf : GatherDims.WF S800000x100 S50000x1 S50000x100 [1] [0] [] [0] [] 1 ![1, 100]
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x200_S50000x200_1_0_0_1_n_n_wf : DotDims.WF S50000x100 S100x200 S50000x200 [1] [0] [0] [1] [] []
  gather_S50000x200_S800000x1_S800000x200_1_0_n_n_0_1_1200_wf : GatherDims.WF S50000x200 S800000x1 S800000x200 [1] [0] [] [0] [] 1 ![1, 200]
  scatter_S50000x200_S800000x1_S800000x200_1_0_0_1_wf : ScatterDims.WF S50000x200 S800000x1 S800000x200 [1] [0] [0] 1
  dot_S50000x200_S200x100_S50000x100_1_0_0_1_n_n_wf : DotDims.WF S50000x200 S200x100 S50000x100 [1] [0] [0] [1] [] []

variable [Facts₀]

def gather_S800000x100_S50000x1_S50000x100_1_0_n_n_0_1_1100 : GatherDims S800000x100 S50000x1 S50000x100 where
  offsetDims := [1]
  collapsedSliceDims := [0]
  operandBatchingDims := []
  startIndicesBatchingDims := []
  startIndexMap := [0]
  indexVectorDim := 1
  sliceSizes := ![1, 100]
  wf := gather_S800000x100_S50000x1_S50000x100_1_0_n_n_0_1_1100_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x200_S50000x200_1_0_0_1_n_n : DotDims S50000x100 S100x200 S50000x200 where
  lhsContracting := [1]
  rhsContracting := [0]
  lhsNonContracting := [0]
  rhsNonContracting := [1]
  lhsBatch := []
  rhsBatch := []
  wf := dot_S50000x100_S100x200_S50000x200_1_0_0_1_n_n_wf
def gather_S50000x200_S800000x1_S800000x200_1_0_n_n_0_1_1200 : GatherDims S50000x200 S800000x1 S800000x200 where
  offsetDims := [1]
  collapsedSliceDims := [0]
  operandBatchingDims := []
  startIndicesBatchingDims := []
  startIndexMap := [0]
  indexVectorDim := 1
  sliceSizes := ![1, 200]
  wf := gather_S50000x200_S800000x1_S800000x200_1_0_n_n_0_1_1200_wf
def scatter_S50000x200_S800000x1_S800000x200_1_0_0_1 : ScatterDims S50000x200 S800000x1 S800000x200 where
  updateWindowDims := [1]
  insertedWindowDims := [0]
  scatterDimsToOperandDims := [0]
  indexVectorDim := 1
  wf := scatter_S50000x200_S800000x1_S800000x200_1_0_0_1_wf
def dot_S50000x200_S200x100_S50000x100_1_0_0_1_n_n : DotDims S50000x200 S200x100 S50000x100 where
  lhsContracting := [1]
  rhsContracting := [0]
  lhsNonContracting := [0]
  rhsNonContracting := [1]
  lhsBatch := []
  rhsBatch := []
  wf := dot_S50000x200_S200x100_S50000x100_1_0_0_1_n_n_wf

class Facts : Prop extends Facts₀ where

variable [Facts]
-- ==== Proof.HostTerms.lean ====
/-
  The host operations of the kernel program between its regions, as functions of the arrays they read: a row-take with
  out-of-range rows filled (by an integer sentinel, or by the not-a-number pattern), the edge sum as a scatter-add onto
  zeros, and the zero paddings of the two weight matrices and the first bias.  Then what each region's input arrays
  hold when the region is entered, as these functions of the argument arrays and of the previous region's output.
-/
import proofs.«413761_j19774029431051_2_alg».proof.Proof.Gen.KernelIdeal.Frame
import Idealize.ShloMosaic.Lib.StableHlo.Run

set_option maxRecDepth 16384

noncomputable section

namespace Cert.KernelIdeal.Host

open Idealize.ShloMosaic Idealize.ShloMosaic.TcCoe Idealize.SL.Sem
open Cert.KernelIdeal Cert.KernelIdeal.Gen

variable {F : FTy → Type} [FloatOps F]

/-- Row numbers as numpy reads them: a negative one counts from the end. -/
def wrapV (N : BitVec 32) (i : IVec S800000 32) : IVec S800000 32 :=
  select (cmpi .slt i (broadcastInDim S800000 ![] bcast_S_S800000 (constantI S_ 32 0#32)))
    (addi i (broadcastInDim S800000 ![] bcast_S_S800000 (constantI S_ 32 N))) i

/-- The row numbers as a column of start indices. -/
def colV (w : IVec S800000 32) : IVec S800000x1 32 := broadcastInDim S800000x1 ![0] bcast_S800000_S800000x1_0 w

/-- Which rows of a column of row numbers lie in `[0, hi]`. -/
def okV (hi : BitVec 32) (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 hi)))))
    (constantI S_ 1 1#1) reducesTo_S800000x1_S800000_d1 h_S_

/-- The take of table words by node numbers, an out-of-range node filled with the least integer. -/
def takeCid (cid : IVec S50000 32) (i : IVec S800000 32) : IVec S800000 32 :=
  select (okV 49999#32 (colV (wrapV 50000#32 i)))
    (Host.gather gather_S50000_S800000x1_S800000_n_0_n_n_0_1_1 cid (colV (wrapV 50000#32 i)))
    (broadcastInDim S800000 ![] bcast_S_S800000 (constantI S_ 32 2147483648#32))

/-- The take of table rows by words, an out-of-range word filled with the not-a-number pattern. -/
def takeEmb (emb : FVec F S800000x100 .f32) (i : IVec S800000 32) : FVec F S800000x100 .f32 :=
  select (broadcastInDim S800000x100 ![0] bcast_S800000_S800000x100_0 (okV 799999#32 (colV (wrapV 800000#32 i))))
    (Host.gather gather_S800000x100_S800000x1_S800000x100_1_0_n_n_0_1_1100 emb (colV (wrapV 800000#32 i)))
    (broadcastInDim S800000x100 ![] bcast_S_S800000x100 (constant S_ .f32 0x7FC00000#32))

/-- The take of node rows by node numbers, an out-of-range node filled with the not-a-number pattern. -/
def takeRows (z : FVec F S50000x100 .f32) (i : IVec S800000 32) : FVec F S800000x100 .f32 :=
  select (broadcastInDim S800000x100 ![0] bcast_S800000_S800000x100_0 (okV 49999#32 (colV (wrapV 50000#32 i))))
    (Host.gather gather_S50000x100_S800000x1_S800000x100_1_0_n_n_0_1_1100 z (colV (wrapV 50000#32 i)))
    (broadcastInDim S800000x100 ![] bcast_S_S800000x100 (constant S_ .f32 0x7FC00000#32))

/-- The edge sum: every edge's row added onto zeros at the row its end node numbers. -/
def segSum (msgs : FVec F S800000x100 .f32) (dst : IVec S800000 32) : FVec F S50000x100 .f32 :=
  Host.scatterAdd scatter_S50000x100_S800000x1_S800000x100_1_0_0_1
    (broadcastInDim S50000x100 ![] bcast_S_S50000x100 (constant S_ .f32 0x00000000#32))
    (broadcastInDim S800000x1 ![0] bcast_S800000_S800000x1_0 dst) msgs

/-- The padding value: the integer zero read as a float. -/
def padZero : FVec F S_ .f32 := sitofp (F := F) .f32 (constantI S_ 32 0#32)

/-- The first weight matrix with 56 padding columns. -/
def padW1 (w : FVec F S100x200 .f32) : FVec F S100x256 .f32 :=
  pad S100x256 ![0, 0] ![0, 56] ![0, 0] w (padZero (F := F)) pads_S100x200_S100x256_000_0560 h_S_

/-- The first bias with 56 padding entries, as a row. -/
def padB1 (b : FVec F S200 .f32) : FVec F S1x256 .f32 :=
  shapeCast S1x256 (pad S256 ![0] ![56] ![0] b (padZero (F := F)) pads_S200_S256_0560 h_S_) shapeCasts_S256_S1x256

/-- The second weight matrix with 56 padding rows. -/
def padW2 (w : FVec F S200x100 .f32) : FVec F S256x100 .f32 :=
  pad S256x100 ![0, 0] ![56, 0] ![0, 0] w (padZero (F := F)) pads_S200x100_S256x100_0560_000 h_S_

/-- The second bias as a row. -/
def rowB2 (b : FVec F S100 .f32) : FVec F S1x100 .f32 := shapeCast S1x100 b shapeCasts_S100_S1x100

variable (m : (ℓ : Loc nD τ sig) → Buf (Elt F) ℓ) (ρ : Dev nD → PrngReg)

/-- The argument arrays at launch, at their literal types. -/
abbrev aEmb (c : Dev nD) : FVec F S800000x100 .f32 := m ((c : Thread nD τ).loc main_arg0)
abbrev aW1 (c : Dev nD) : FVec F S100x200 .f32 := m ((c : Thread nD τ).loc main_arg1)
abbrev aB1 (c : Dev nD) : FVec F S200 .f32 := m ((c : Thread nD τ).loc main_arg2)
abbrev aW2 (c : Dev nD) : FVec F S200x100 .f32 := m ((c : Thread nD τ).loc main_arg3)
abbrev aB2 (c : Dev nD) : FVec F S100 .f32 := m ((c : Thread nD τ).loc main_arg4)
abbrev aCid (c : Dev nD) : IVec S50000 32 := m ((c : Thread nD τ).loc main_arg5)
abbrev aSrc (c : Dev nD) : IVec S800000 32 := m ((c : Thread nD τ).loc main_arg6)
abbrev aDst (c : Dev nD) : IVec S800000 32 := m ((c : Thread nD τ).loc main_arg7)

end Cert.KernelIdeal.Host

end
-- ==== Proof.HostStretchA.lean ====
/-
  What the first stretch of host operations of the kernel program leaves at the buffer the next stretch reads, as the
  row-take of the module of host terms applied to what the stretch found, from any buffer contents: the stretch cut
  into three runs of operations, each read on its own.
-/
import proofs.«413761_j19774029431051_2_alg».proof.Proof.HostTerms

set_option maxRecDepth 16384

noncomputable section

namespace Cert.KernelIdeal.Host

open Idealize.ShloMosaic Idealize.ShloMosaic.TcCoe Idealize.SL.Sem
open Cert.KernelIdeal Cert.KernelIdeal.Gen

variable {F : FTy → Type} [FloatOps F]

variable (W : Valuation τ sig (Elt F))

/-- Operations 1 to 8 of the stretch: the row numbers wrapped, as a column. -/
abbrev opsA1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_arg6 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_arg6 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_arg6 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]

/-- Operations 9 to 18: which rows of the column lie in range. -/
abbrev opsA2 : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]

/-- Operations 19 to 22: the gather, and the fill of the out-of-range rows. -/
abbrev opsA3 : List (HloOp τ sig (Elt F)) :=
  [ StableHlo.TRef.binary (.of main_arg5 : StableHlo.TRef sig ⟨S50000, .i32⟩) (.of main_call0_v5 : StableHlo.TRef sig ⟨S800000x1, .i32⟩) (.of main_call0_v13 : StableHlo.TRef sig ⟨S800000, .i32⟩) (fun x i => Host.gather gather_S50000_S800000x1_S800000_n_0_n_n_0_1_1 x i),
    StableHlo.TRef.nullary (.of main_call0_c_4 : StableHlo.TRef sig ⟨S_, .i32⟩) (constantI S_ 32 2147483648#32),
    StableHlo.TRef.unary (.of main_call0_c_4 : StableHlo.TRef sig ⟨S_, .i32⟩) (.of main_call0_v14 : StableHlo.TRef sig ⟨S800000, .i32⟩) (broadcastInDim S800000 ![] bcast_S_S800000),
    StableHlo.TRef.ternary (.of main_call0_v12 : StableHlo.TRef sig ⟨S800000, .i1⟩) (.of main_call0_v13 : StableHlo.TRef sig ⟨S800000, .i32⟩) (.of main_call0_v14 : StableHlo.TRef sig ⟨S800000, .i32⟩) (.of main_v0 : StableHlo.TRef sig ⟨S800000, .i32⟩) select ]

/-- The stretch is the three runs in a row. -/
theorem hostOps0_cut : (hostOps0 : List (HloOp τ sig (Elt F))) = opsA1 ++ (opsA2 ++ opsA3) := rfl

/-- After the first run the column buffer holds the wrapped row numbers as a column, from any contents. -/
theorem a1_v5 (W : Valuation τ sig (Elt F)) : StableHlo.after opsA1 W (Proc.devRef .tc main_call0_v5)
    = colV (wrapV 50000#32 (W (Proc.devRef .tc main_arg6))) := by
  unfold colV wrapV
  simp only [opsA1]; after_results_simp
  all_goals simp only [StableHlo.TRef.ofBuf, StableHlo.TRef.toBuf, cast_eq]

/-- After the second run the mask buffer holds which rows of the column it found lie in range, from any contents. -/
theorem a2_v12 (W : Valuation τ sig (Elt F)) : StableHlo.after opsA2 W (Proc.devRef .tc main_call0_v12)
    = okV 49999#32 (W (Proc.devRef .tc main_call0_v5)) := by
  unfold okV
  simp only [opsA2]; after_results_simp
  all_goals simp only [StableHlo.TRef.ofBuf, StableHlo.TRef.toBuf, cast_eq]

/-- After the third run the result buffer holds the gathered words where the mask it found is set and the fill elsewhere,
    from any contents. -/
theorem a3_v0 (W : Valuation τ sig (Elt F)) : StableHlo.after opsA3 W (Proc.devRef .tc main_v0)
    = select (W (Proc.devRef .tc main_call0_v12))
        (Host.gather gather_S50000_S800000x1_S800000_n_0_n_n_0_1_1 (W (Proc.devRef .tc main_arg5)) (W (Proc.devRef .tc main_call0_v5)))
        (broadcastInDim S800000 ![] bcast_S_S800000 (constantI S_ 32 2147483648#32)) := by
  simp only [opsA3]; after_results_simp
  all_goals simp only [StableHlo.TRef.ofBuf, StableHlo.TRef.toBuf, cast_eq]

/-- A literal run of operations leaves alone a buffer none of them writes: each operation's one written buffer is another
    reference. -/
macro "kept_byA" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, Finset.mem_singleton]
             repeat' apply And.intro
             all_goals exact StableHlo.devRef_ne_of_ne (by decide)))

/-- The first run keeps the table. -/
theorem a1_keeps_arg5 (W : Valuation τ sig (Elt F)) :
    StableHlo.after opsA1 W (Proc.devRef .tc main_arg5) = W (Proc.devRef .tc main_arg5) := by kept_byA opsA1
/-- The second run keeps the table and the column. -/
theorem a2_keeps_arg5 (W : Valuation τ sig (Elt F)) :
    StableHlo.after opsA2 W (Proc.devRef .tc main_arg5) = W (Proc.devRef .tc main_arg5) := by kept_byA opsA2
theorem a2_keeps_v5 (W : Valuation τ sig (Elt F)) :
    StableHlo.after opsA2 W (Proc.devRef .tc main_call0_v5) = W (Proc.devRef .tc main_call0_v5) := by kept_byA opsA2

theorem s0_v0 : StableHlo.after hostOps0 W (Proc.devRef .tc main_v0)
    = takeCid (W (Proc.devRef .tc main_arg5)) (W (Proc.devRef .tc main_arg6)) := by
  unfold takeCid
  rw [hostOps0_cut, StableHlo.after_append, StableHlo.after_append, a3_v0, a2_v12, a2_keeps_arg5, a2_keeps_v5, a1_v5,
    a1_keeps_arg5]

end Cert.KernelIdeal.Host

end
-- ==== Proof.HostStretchB.lean ====
/-
  What the second stretch of host operations of the kernel program leaves at the buffer the next stretch reads, as the
  row-take of the module of host terms applied to what the stretch found, from any buffer contents: the stretch cut
  into three runs of operations, each read on its own.
-/
import proofs.«413761_j19774029431051_2_alg».proof.Proof.HostTerms

set_option maxRecDepth 16384

noncomputable section

namespace Cert.KernelIdeal.Host

open Idealize.ShloMosaic Idealize.ShloMosaic.TcCoe Idealize.SL.Sem
open Cert.KernelIdeal Cert.KernelIdeal.Gen

variable {F : FTy → Type} [FloatOps F]

variable (W : Valuation τ sig (Elt F))

/-- Operations 1 to 8 of the stretch: the row numbers wrapped, as a column. -/
abbrev opsB1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v0 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 800000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v0 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v0 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]

/-- Operations 9 to 18: which rows of the column lie in range. -/
abbrev opsB2 : List (HloOp τ sig (Elt F)) :=
  [ StableHlo.TRef.nullary (.of main_call1_c_1 : StableHlo.TRef sig ⟨S1, .i32⟩) (constantI S1 32 799999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]

/-- Operations 19 to 23: the gather of the rows, the mask spread along the rows, and the fill of the out-of-range rows. -/
abbrev opsB3 : List (HloOp τ sig (Elt F)) :=
  [ StableHlo.TRef.binary (.of main_arg0 : StableHlo.TRef sig ⟨S800000x100, .f32⟩) (.of main_call1_v5 : StableHlo.TRef sig ⟨S800000x1, .i32⟩) (.of main_call1_v13 : StableHlo.TRef sig ⟨S800000x100, .f32⟩) (fun x i => Host.gather gather_S800000x100_S800000x1_S800000x100_1_0_n_n_0_1_1100 x i),
    StableHlo.TRef.unary (.of main_call1_v12 : StableHlo.TRef sig ⟨S800000, .i1⟩) (.of main_call1_v14 : StableHlo.TRef sig ⟨S800000x100, .i1⟩) (broadcastInDim S800000x100 ![0] bcast_S800000_S800000x100_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S800000x100, .f32⟩) (broadcastInDim S800000x100 ![] bcast_S_S800000x100),
    StableHlo.TRef.ternary (.of main_call1_v14 : StableHlo.TRef sig ⟨S800000x100, .i1⟩) (.of main_call1_v13 : StableHlo.TRef sig ⟨S800000x100, .f32⟩) (.of main_call1_v15 : StableHlo.TRef sig ⟨S800000x100, .f32⟩) (.of main_v1 : StableHlo.TRef sig ⟨S800000x100, .f32⟩) select ]

/-- The stretch is the three runs in a row. -/
theorem hostOps0_1_cut : (hostOps0_1 : List (HloOp τ sig (Elt F))) = opsB1 ++ (opsB2 ++ opsB3) := rfl

/-- After the first run the column buffer holds the wrapped row numbers as a column, from any contents. -/
theorem b1_v5 (W : Valuation τ sig (Elt F)) : StableHlo.after opsB1 W (Proc.devRef .tc main_call1_v5)
    = colV (wrapV 800000#32 (W (Proc.devRef .tc main_v0))) := by
  unfold colV wrapV
  simp only [opsB1]; after_results_simp
  all_goals simp only [StableHlo.TRef.ofBuf, StableHlo.TRef.toBuf, cast_eq]

/-- After the second run the mask buffer holds which rows of the column it found lie in range, from any contents. -/
theorem b2_v12 (W : Valuation τ sig (Elt F)) : StableHlo.after opsB2 W (Proc.devRef .tc main_call1_v12)
    = okV 799999#32 (W (Proc.devRef .tc main_call1_v5)) := by
  unfold okV
  simp only [opsB2]; after_results_simp
  all_goals simp only [StableHlo.TRef.ofBuf, StableHlo.TRef.toBuf, cast_eq]

/-- After the third run the result buffer holds the gathered rows where the mask it found is set and the fill elsewhere,
    from any contents. -/
theorem b3_res (W : Valuation τ sig (Elt F)) : StableHlo.after opsB3 W (Proc.devRef .tc main_v1)
    = select (broadcastInDim S800000x100 ![0] bcast_S800000_S800000x100_0 (W (Proc.devRef .tc main_call1_v12)))
        (Host.gather gather_S800000x100_S800000x1_S800000x100_1_0_n_n_0_1_1100 (W (Proc.devRef .tc main_arg0)) (W (Proc.devRef .tc main_call1_v5)))
        (broadcastInDim S800000x100 ![] bcast_S_S800000x100 (constant (F := F) S_ .f32 0x7FC00000#32)) := by
  simp only [opsB3]; after_results_simp
  all_goals simp only [StableHlo.TRef.ofBuf, StableHlo.TRef.toBuf, cast_eq]

/-- A literal run of operations leaves alone a buffer none of them writes: each operation's one written buffer is another
    reference. -/
macro "kept_byB" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, Finset.mem_singleton]
             repeat' apply And.intro
             all_goals exact StableHlo.devRef_ne_of_ne (by decide)))

/-- The first run keeps the table. -/
theorem b1_keeps_table (W : Valuation τ sig (Elt F)) :
    StableHlo.after opsB1 W (Proc.devRef .tc main_arg0) = W (Proc.devRef .tc main_arg0) := by kept_byB opsB1
/-- The second run keeps the table and the column. -/
theorem b2_keeps_table (W : Valuation τ sig (Elt F)) :
    StableHlo.after opsB2 W (Proc.devRef .tc main_arg0) = W (Proc.devRef .tc main_arg0) := by kept_byB opsB2
theorem b2_keeps_v5 (W : Valuation τ sig (Elt F)) :
    StableHlo.after opsB2 W (Proc.devRef .tc main_call1_v5) = W (Proc.devRef .tc main_call1_v5) := by kept_byB opsB2

theorem s01_v1 : StableHlo.after hostOps0_1 W (Proc.devRef .tc main_v1)
    = takeEmb (W (Proc.devRef .tc main_arg0)) (W (Proc.devRef .tc main_v0)) := by
  unfold takeEmb
  rw [hostOps0_1_cut, StableHlo.after_append, StableHlo.after_append, b3_res, b2_v12, b2_keeps_table,
    b2_keeps_v5, b1_v5, b1_keeps_table]

end Cert.KernelIdeal.Host

end
-- ==== Proof.HostStretchC.lean ====
/-
  What the third row-take stretch of host operations of the kernel program leaves at the buffer the next stretch reads, as the
  row-take of the module of host terms applied to what the stretch found, from any buffer contents: the stretch cut
  into three runs of operations, each read on its own.
-/
import proofs.«413761_j19774029431051_2_alg».proof.Proof.HostTerms

set_option maxRecDepth 16384

noncomputable section

namespace Cert.KernelIdeal.Host

open Idealize.ShloMosaic Idealize.ShloMosaic.TcCoe Idealize.SL.Sem
open Cert.KernelIdeal Cert.KernelIdeal.Gen

variable {F : FTy → Type} [FloatOps F]

variable (W : Valuation τ sig (Elt F))

/-- Operations 1 to 8 of the stretch: the row numbers wrapped, as a column. -/
abbrev opsC1 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S800000, .i32⟩) (broadcastInDim S800000 ![] bcast_S_S800000),
    StableHlo.TRef.binary (.of main_arg6 : StableHlo.TRef sig ⟨S800000, .i32⟩) (.of main_call5_v0 : StableHlo.TRef sig ⟨S800000, .i32⟩) (.of main_call5_v1 : StableHlo.TRef sig ⟨S800000, .i1⟩) (cmpi .slt),
    StableHlo.TRef.nullary (.of main_call5_c_0 : StableHlo.TRef sig ⟨S_, .i32⟩) (constantI S_ 32 50000#32),
    StableHlo.TRef.unary (.of main_call5_c_0 : StableHlo.TRef sig ⟨S_, .i32⟩) (.of main_call5_v2 : StableHlo.TRef sig ⟨S800000, .i32⟩) (broadcastInDim S800000 ![] bcast_S_S800000),
    StableHlo.TRef.binary (.of main_arg6 : StableHlo.TRef sig ⟨S800000, .i32⟩) (.of main_call5_v2 : StableHlo.TRef sig ⟨S800000, .i32⟩) (.of main_call5_v3 : StableHlo.TRef sig ⟨S800000, .i32⟩) addi,
    StableHlo.TRef.ternary (.of main_call5_v1 : StableHlo.TRef sig ⟨S800000, .i1⟩) (.of main_call5_v3 : StableHlo.TRef sig ⟨S800000, .i32⟩) (.of main_arg6 : StableHlo.TRef sig ⟨S800000, .i32⟩) (.of main_call5_v4 : StableHlo.TRef sig ⟨S800000, .i32⟩) select,
    StableHlo.TRef.unary main_call5_call0.v0 (.of main_call5_v5 : StableHlo.TRef sig ⟨S800000x1, .i32⟩) (broadcastInDim S800000x1 ![0] bcast_S800000_S800000x1_0) ]

/-- Operations 9 to 18: which rows of the column lie in range. -/
abbrev opsC2 : List (HloOp τ sig (Elt F)) :=
  [ StableHlo.TRef.nullary (.of main_call5_c_1 : StableHlo.TRef sig ⟨S1, .i32⟩) (constantI S1 32 49999#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S800000x1, .i32⟩) (broadcastInDim S800000x1 ![] bcast_S_S800000x1),
    StableHlo.TRef.binary (.of main_call5_v5 : StableHlo.TRef sig ⟨S800000x1, .i32⟩) (.of main_call5_v6 : StableHlo.TRef sig ⟨S800000x1, .i32⟩) (.of main_call5_v7 : StableHlo.TRef sig ⟨S800000x1, .i1⟩) (cmpi .sge),
    StableHlo.TRef.unary (.of main_call5_c_1 : StableHlo.TRef sig ⟨S1, .i32⟩) (.of main_call5_v8 : StableHlo.TRef sig ⟨S1x1, .i32⟩) (broadcastInDim S1x1 ![1] bcast_S1_S1x1_1),
    StableHlo.TRef.unary (.of main_call5_v8 : StableHlo.TRef sig ⟨S1x1, .i32⟩) (.of main_call5_v9 : StableHlo.TRef sig ⟨S800000x1, .i32⟩) (broadcastInDim S800000x1 ![0, 1] bcast_S1x1_S800000x1_0_1),
    StableHlo.TRef.binary (.of main_call5_v5 : StableHlo.TRef sig ⟨S800000x1, .i32⟩) (.of main_call5_v9 : StableHlo.TRef sig ⟨S800000x1, .i32⟩) (.of main_call5_v10 : StableHlo.TRef sig ⟨S800000x1, .i1⟩) (cmpi .sle),
    StableHlo.TRef.binary (.of main_call5_v7 : StableHlo.TRef sig ⟨S800000x1, .i1⟩) (.of main_call5_v10 : StableHlo.TRef sig ⟨S800000x1, .i1⟩) (.of main_call5_v11 : StableHlo.TRef sig ⟨S800000x1, .i1⟩) andi,
    StableHlo.TRef.nullary (.of main_call5_c_3 : StableHlo.TRef sig ⟨S_, .i1⟩) (constantI S_ 1 1#1),
    StableHlo.TRef.binary (.of main_call5_v11 : StableHlo.TRef sig ⟨S800000x1, .i1⟩) (.of main_call5_c_3 : StableHlo.TRef sig ⟨S_, .i1⟩) (.of main_call5_v12 : StableHlo.TRef sig ⟨S800000, .i1⟩) (fun x v => Host.reduce IntOp.andi x v reducesTo_S800000x1_S800000_d1 h_S_) ]

/-- Operations 19 to 23: the gather of the rows, the mask spread along the rows, and the fill of the out-of-range rows. -/
abbrev opsC3 : List (HloOp τ sig (Elt F)) :=
  [ StableHlo.TRef.binary (.of main_v10 : StableHlo.TRef sig ⟨S50000x100, .f32⟩) (.of main_call5_v5 : StableHlo.TRef sig ⟨S800000x1, .i32⟩) (.of main_call5_v13 : StableHlo.TRef sig ⟨S800000x100, .f32⟩) (fun x i => Host.gather gather_S50000x100_S800000x1_S800000x100_1_0_n_n_0_1_1100 x i),
    StableHlo.TRef.unary (.of main_call5_v12 : StableHlo.TRef sig ⟨S800000, .i1⟩) (.of main_call5_v14 : StableHlo.TRef sig ⟨S800000x100, .i1⟩) (broadcastInDim S800000x100 ![0] bcast_S800000_S800000x100_0),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v15 : StableHlo.TRef sig ⟨S800000x100, .f32⟩) (broadcastInDim S800000x100 ![] bcast_S_S800000x100),
    StableHlo.TRef.ternary (.of main_call5_v14 : StableHlo.TRef sig ⟨S800000x100, .i1⟩) (.of main_call5_v13 : StableHlo.TRef sig ⟨S800000x100, .f32⟩) (.of main_call5_v15 : StableHlo.TRef sig ⟨S800000x100, .f32⟩) (.of main_v11 : StableHlo.TRef sig ⟨S800000x100, .f32⟩) select ]

/-- The stretch is the three runs in a row. -/
theorem hostOps2_cut : (hostOps2 : List (HloOp τ sig (Elt F))) = opsC1 ++ (opsC2 ++ opsC3) := rfl

/-- After the first run the column buffer holds the wrapped row numbers as a column, from any contents. -/
theorem c1_v5 (W : Valuation τ sig (Elt F)) : StableHlo.after opsC1 W (Proc.devRef .tc main_call5_v5)
    = colV (wrapV 50000#32 (W (Proc.devRef .tc main_arg6))) := by
  unfold colV wrapV
  simp only [opsC1]; after_results_simp
  all_goals simp only [StableHlo.TRef.ofBuf, StableHlo.TRef.toBuf, cast_eq]

/-- After the second run the mask buffer holds which rows of the column it found lie in range, from any contents. -/
theorem c2_v12 (W : Valuation τ sig (Elt F)) : StableHlo.after opsC2 W (Proc.devRef .tc main_call5_v12)
    = okV 49999#32 (W (Proc.devRef .tc main_call5_v5)) := by
  unfold okV
  simp only [opsC2]; after_results_simp
  all_goals simp only [StableHlo.TRef.ofBuf, StableHlo.TRef.toBuf, cast_eq]

/-- After the third run the result buffer holds the gathered rows where the mask it found is set and the fill elsewhere,
    from any contents. -/
theorem c3_res (W : Valuation τ sig (Elt F)) : StableHlo.after opsC3 W (Proc.devRef .tc main_v11)
    = select (broadcastInDim S800000x100 ![0] bcast_S800000_S800000x100_0 (W (Proc.devRef .tc main_call5_v12)))
        (Host.gather gather_S50000x100_S800000x1_S800000x100_1_0_n_n_0_1_1100 (W (Proc.devRef .tc main_v10)) (W (Proc.devRef .tc main_call5_v5)))
        (broadcastInDim S800000x100 ![] bcast_S_S800000x100 (constant (F := F) S_ .f32 0x7FC00000#32)) := by
  simp only [opsC3]; after_results_simp
  all_goals simp only [StableHlo.TRef.ofBuf, StableHlo.TRef.toBuf, cast_eq]

/-- A literal run of operations leaves alone a buffer none of them writes: each operation's one written buffer is another
    reference. -/
macro "kept_byC" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, Finset.mem_singleton]
             repeat' apply And.intro
             all_goals exact StableHlo.devRef_ne_of_ne (by decide)))

/-- The first run keeps the table. -/
theorem c1_keeps_table (W : Valuation τ sig (Elt F)) :
    StableHlo.after opsC1 W (Proc.devRef .tc main_v10) = W (Proc.devRef .tc main_v10) := by kept_byC opsC1
/-- The second run keeps the table and the column. -/
theorem c2_keeps_table (W : Valuation τ sig (Elt F)) :
    StableHlo.after opsC2 W (Proc.devRef .tc main_v10) = W (Proc.devRef .tc main_v10) := by kept_byC opsC2
theorem c2_keeps_v5 (W : Valuation τ sig (Elt F)) :
    StableHlo.after opsC2 W (Proc.devRef .tc main_call5_v5) = W (Proc.devRef .tc main_call5_v5) := by kept_byC opsC2

theorem s2_v11 : StableHlo.after hostOps2 W (Proc.devRef .tc main_v11)
    = takeRows (W (Proc.devRef .tc main_v10)) (W (Proc.devRef .tc main_arg6)) := by
  unfold takeRows
  rw [hostOps2_cut, StableHlo.after_append, StableHlo.after_append, c3_res, c2_v12, c2_keeps_table,
    c2_keeps_v5, c1_v5, c1_keeps_table]

end Cert.KernelIdeal.Host

end
-- ==== Proof.HostStretchD.lean ====
/-
  What each stretch of host operations of the kernel program leaves at the buffers the next region reads, as the
  functions of the module of host terms applied to what the stretch found, from any buffer contents.
-/
import proofs.«413761_j19774029431051_2_alg».proof.Proof.HostTerms

set_option maxRecDepth 16384

noncomputable section

namespace Cert.KernelIdeal.Host

open Idealize.ShloMosaic Idealize.ShloMosaic.TcCoe Idealize.SL.Sem
open Cert.KernelIdeal Cert.KernelIdeal.Gen

variable {F : FTy → Type} [FloatOps F]

variable (W : Valuation τ sig (Elt F))

set_option maxHeartbeats 1000000 in
theorem s02_v4 : StableHlo.after hostOps0_2 W (Proc.devRef .tc main_v4)
    = segSum (W (Proc.devRef .tc main_v1)) (W (Proc.devRef .tc main_arg7)) := by
  simp only [hostOps0_2]; after_results_simp
  try simp only [StableHlo.TRef.ofBuf, StableHlo.TRef.toBuf, cast_eq]
  unfold segSum
  rfl

set_option maxHeartbeats 1000000 in
theorem s02_c : StableHlo.after hostOps0_2 W (Proc.devRef .tc main_c)
    = (constantI S_ 32 0#32 : IVec S_ 32) := by
  simp only [hostOps0_2]; after_results_simp
  try simp only [StableHlo.TRef.ofBuf, StableHlo.TRef.toBuf, cast_eq]
  all_goals rfl

set_option maxHeartbeats 1000000 in
theorem s03_v5 : StableHlo.after hostOps0_3 W (Proc.devRef .tc main_v5)
    = (pad S100x256 ![0, 0] ![0, 56] ![0, 0] (W (Proc.devRef .tc main_arg1)) (sitofp (F := F) .f32 (W (Proc.devRef .tc main_c))) pads_S100x200_S100x256_000_0560 h_S_ : FVec F S100x256 .f32) := by
  simp only [hostOps0_3]; after_results_simp
  try simp only [StableHlo.TRef.ofBuf, StableHlo.TRef.toBuf, cast_eq]
  all_goals rfl

set_option maxHeartbeats 1000000 in
theorem s04_c0 : StableHlo.after hostOps0_4 W (Proc.devRef .tc main_c_0)
    = (constantI S_ 32 0#32 : IVec S_ 32) := by
  simp only [hostOps0_4]; after_results_simp
  try simp only [StableHlo.TRef.ofBuf, StableHlo.TRef.toBuf, cast_eq]
  all_goals rfl

set_option maxHeartbeats 1000000 in
theorem s05_v6 : StableHlo.after hostOps0_5 W (Proc.devRef .tc main_v6)
    = (pad S256 ![0] ![56] ![0] (W (Proc.devRef .tc main_arg2)) (sitofp (F := F) .f32 (W (Proc.devRef .tc main_c_0))) pads_S200_S256_0560 h_S_ : FVec F S256 .f32) := by
  simp only [hostOps0_5]; after_results_simp
  try simp only [StableHlo.TRef.ofBuf, StableHlo.TRef.toBuf, cast_eq]
  all_goals rfl

set_option maxHeartbeats 1000000 in
theorem s06_v7 : StableHlo.after hostOps0_6 W (Proc.devRef .tc main_v7)
    = (shapeCast S1x256 (W (Proc.devRef .tc main_v6)) shapeCasts_S256_S1x256 : FVec F S1x256 .f32) := by
  simp only [hostOps0_6]; after_results_simp
  try simp only [StableHlo.TRef.ofBuf, StableHlo.TRef.toBuf, cast_eq]
  all_goals rfl

set_option maxHeartbeats 1000000 in
theorem s1_c1 : StableHlo.after hostOps1 W (Proc.devRef .tc main_c_1)
    = (constantI S_ 32 0#32 : IVec S_ 32) := by
  simp only [hostOps1]; after_results_simp
  try simp only [StableHlo.TRef.ofBuf, StableHlo.TRef.toBuf, cast_eq]
  all_goals rfl

set_option maxHeartbeats 1000000 in
theorem s11_v9 : StableHlo.after hostOps1_1 W (Proc.devRef .tc main_v9)
    = (pad S256x100 ![0, 0] ![56, 0] ![0, 0] (W (Proc.devRef .tc main_arg3)) (sitofp (F := F) .f32 (W (Proc.devRef .tc main_c_1))) pads_S200x100_S256x100_0560_000 h_S_ : FVec F S256x100 .f32) := by
  simp only [hostOps1_1]; after_results_simp
  try simp only [StableHlo.TRef.ofBuf, StableHlo.TRef.toBuf, cast_eq]
  all_goals rfl

set_option maxHeartbeats 1000000 in
theorem s21_v14 : StableHlo.after hostOps2_1 W (Proc.devRef .tc main_v14)
    = segSum (W (Proc.devRef .tc main_v11)) (W (Proc.devRef .tc main_arg7)) := by
  simp only [hostOps2_1]; after_results_simp
  try simp only [StableHlo.TRef.ofBuf, StableHlo.TRef.toBuf, cast_eq]
  unfold segSum
  rfl

set_option maxHeartbeats 1000000 in
theorem s21_v15 : StableHlo.after hostOps2_1 W (Proc.devRef .tc main_v15)
    = rowB2 (W (Proc.devRef .tc main_arg4)) := by
  simp only [hostOps2_1]; after_results_simp
  try simp only [StableHlo.TRef.ofBuf, StableHlo.TRef.toBuf, cast_eq]
  unfold rowB2
  rfl

end Cert.KernelIdeal.Host

end
-- ==== Proof.HostEntry.lean ====
/-
  What each region of the kernel program finds at its windows' arrays when it is entered, as the host terms of the
  argument arrays at launch and of the previous region's output array: every host stretch read at the buffer it writes,
  every other stretch leaving that buffer as it was.
-/
import proofs.«413761_j19774029431051_2_alg».proof.Proof.HostStretchA
import proofs.«413761_j19774029431051_2_alg».proof.Proof.HostStretchB
import proofs.«413761_j19774029431051_2_alg».proof.Proof.HostStretchC
import proofs.«413761_j19774029431051_2_alg».proof.Proof.HostStretchD

set_option maxRecDepth 16384

noncomputable section

namespace Cert.KernelIdeal.Host

open Idealize.ShloMosaic Idealize.ShloMosaic.TcCoe Idealize.SL.Sem
open Cert.KernelIdeal Cert.KernelIdeal.Gen

variable {F : FTy → Type} [FloatOps F]

/-- No operation of the stretch writes the buffer. -/
macro "not_written" ops:ident : tactic =>
  `(tactic| exact StableHlo.after_of_forall_not_mem (b := _) _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- A stretch keeps a buffer none of its operations writes, from any contents. -/
macro "nw(" ops:ident "," r:ident ")" : term =>
  `((fun V => by not_written $ops :
      ∀ V : Valuation τ sig (Elt _), StableHlo.after $ops V (Proc.devRef .tc $r) = V (Proc.devRef .tc $r)))

variable (m : (ℓ : Loc nD τ sig) → Buf (Elt F) ℓ) (ρ : Dev nD → PrngReg)

/-! ## Region 0 -/

theorem entry0_x (c : Dev nD) :
    V7 m ρ c main_v4 = segSum (takeEmb (aEmb m c) (takeCid (aCid m c) (aSrc m c))) (aDst m c) := by
  dsimp only [V7, W7, W6, W5, W4, W3, W2, W1]
  rw [nw(hostOps0_6, main_v4), nw(hostOps0_5, main_v4), nw(hostOps0_4, main_v4), nw(hostOps0_3, main_v4), s02_v4,
    s01_v1, s0_v0, nw(hostOps0, main_arg0), nw(hostOps0_1, main_arg7), nw(hostOps0, main_arg7)]

theorem entry0_w (c : Dev nD) : V7 m ρ c main_v5 = padW1 (aW1 m c) := by
  dsimp only [V7, W7, W6, W5, W4, W3, W2, W1]
  rw [nw(hostOps0_6, main_v5), nw(hostOps0_5, main_v5), nw(hostOps0_4, main_v5), s03_v5, s02_c,
    nw(hostOps0_2, main_arg1), nw(hostOps0_1, main_arg1), nw(hostOps0, main_arg1)]
  rfl

theorem entry0_b (c : Dev nD) : V7 m ρ c main_v7 = padB1 (aB1 m c) := by
  dsimp only [V7, W7, W6, W5, W4, W3, W2, W1]
  rw [s06_v7, s05_v6, s04_c0, nw(hostOps0_4, main_arg2), nw(hostOps0_3, main_arg2), nw(hostOps0_2, main_arg2),
    nw(hostOps0_1, main_arg2), nw(hostOps0, main_arg2)]
  rfl

/-- An argument array is as launched when region 0 is entered. -/
theorem at7_arg3 (c : Dev nD) : W7 m ρ c (Proc.devRef .tc main_arg3) = m ((c : Thread nD τ).loc main_arg3) := by
  dsimp only [W7, W6, W5, W4, W3, W2, W1]
  rw [nw(hostOps0_6, main_arg3), nw(hostOps0_5, main_arg3), nw(hostOps0_4, main_arg3), nw(hostOps0_3, main_arg3),
    nw(hostOps0_2, main_arg3), nw(hostOps0_1, main_arg3), nw(hostOps0, main_arg3)]
theorem at7_arg4 (c : Dev nD) : W7 m ρ c (Proc.devRef .tc main_arg4) = m ((c : Thread nD τ).loc main_arg4) := by
  dsimp only [W7, W6, W5, W4, W3, W2, W1]
  rw [nw(hostOps0_6, main_arg4), nw(hostOps0_5, main_arg4), nw(hostOps0_4, main_arg4), nw(hostOps0_3, main_arg4),
    nw(hostOps0_2, main_arg4), nw(hostOps0_1, main_arg4), nw(hostOps0, main_arg4)]
theorem at7_arg6 (c : Dev nD) : W7 m ρ c (Proc.devRef .tc main_arg6) = m ((c : Thread nD τ).loc main_arg6) := by
  dsimp only [W7, W6, W5, W4, W3, W2, W1]
  rw [nw(hostOps0_6, main_arg6), nw(hostOps0_5, main_arg6), nw(hostOps0_4, main_arg6), nw(hostOps0_3, main_arg6),
    nw(hostOps0_2, main_arg6), nw(hostOps0_1, main_arg6), nw(hostOps0, main_arg6)]
theorem at7_arg7 (c : Dev nD) : W7 m ρ c (Proc.devRef .tc main_arg7) = m ((c : Thread nD τ).loc main_arg7) := by
  dsimp only [W7, W6, W5, W4, W3, W2, W1]
  rw [nw(hostOps0_6, main_arg7), nw(hostOps0_5, main_arg7), nw(hostOps0_4, main_arg7), nw(hostOps0_3, main_arg7),
    nw(hostOps0_2, main_arg7), nw(hostOps0_1, main_arg7), nw(hostOps0, main_arg7)]

/-! ## Region 1 -/

/-- Region 1's first window's array is region 0's output array. -/
theorem entry1_x (c : Dev nD) : V10 m ρ c main_v8 = (dat0 (V7 m ρ) c).arrAt 3 cfg0.N := by
  dsimp only [V10, W10, W9]
  rw [nw(hostOps1_1, main_v8), nw(hostOps1, main_v8)]
  exact W8_arr m ρ c 3

theorem at10_arg (c : Dev nD) (r : Ref sig .tc) (h8 : ∀ w, Pipeline.arrRef spec0 w ≠ r)
    (h9 : ∀ V : Valuation τ sig (Elt F), StableHlo.after hostOps1 V (Proc.devRef .tc r) = V (Proc.devRef .tc r))
    (h10 : ∀ V : Valuation τ sig (Elt F), StableHlo.after hostOps1_1 V (Proc.devRef .tc r) = V (Proc.devRef .tc r)) :
    W10 m ρ c (Proc.devRef .tc r) = W7 m ρ c (Proc.devRef .tc r) := by
  dsimp only [W10, W9]
  rw [h10, h9]
  exact W8_of_ne m ρ c r h8

theorem entry1_w (c : Dev nD) : V10 m ρ c main_v9 = padW2 (aW2 m c) := by
  dsimp only [V10, W10, W9]
  rw [s11_v9, s1_c1, nw(hostOps1, main_arg3), W8_of_ne m ρ c main_arg3 (by decide), at7_arg3]
  rfl

/-! ## Region 2 -/

theorem at13_arg (c : Dev nD) (r : Ref sig .tc) (h8 : ∀ w, Pipeline.arrRef spec0 w ≠ r) (h11 : ∀ w, Pipeline.arrRef spec1 w ≠ r)
    (h9 : ∀ V : Valuation τ sig (Elt F), StableHlo.after hostOps1 V (Proc.devRef .tc r) = V (Proc.devRef .tc r))
    (h10 : ∀ V : Valuation τ sig (Elt F), StableHlo.after hostOps1_1 V (Proc.devRef .tc r) = V (Proc.devRef .tc r)) :
    W11 m ρ c (Proc.devRef .tc r) = W7 m ρ c (Proc.devRef .tc r) :=
  (W11_of_ne m ρ c r h11).trans (at10_arg m ρ c r h8 h9 h10)

/-- Region 2's first window's array: the edge sum of region 1's output rows taken by the sources. -/
theorem entry2_x (c : Dev nD) :
    V13 m ρ c main_v14 = segSum (takeRows ((dat1 (V10 m ρ) c).arrAt 2 cfg1.N) (aSrc m c)) (aDst m c) := by
  dsimp only [V13, W13, W12]
  rw [s21_v14, s2_v11, nw(hostOps2, main_arg7),
    at13_arg m ρ c main_arg7 (by decide) (by decide) nw(hostOps1, main_arg7) nw(hostOps1_1, main_arg7), at7_arg7,
    at13_arg m ρ c main_arg6 (by decide) (by decide) nw(hostOps1, main_arg6) nw(hostOps1_1, main_arg6), at7_arg6,
    W11_arr m ρ c 2]

theorem entry2_b (c : Dev nD) : V13 m ρ c main_v15 = rowB2 (aB2 m c) := by
  dsimp only [V13, W13, W12]
  rw [s21_v15, nw(hostOps2, main_arg4),
    at13_arg m ρ c main_arg4 (by decide) (by decide) nw(hostOps1, main_arg4) nw(hostOps1_1, main_arg4), at7_arg4]

/-- The result array is region 2's output array. -/
theorem result_eq (c : Dev nD) : W14 m ρ c (Proc.devRef .tc main_v16) = (dat2 (V13 m ρ) c).arrAt 2 cfg2.N :=
  W14_arr m ρ c 2

end Cert.KernelIdeal.Host

end
-- ==== Proof.Spec.lean ====
/-
  Two layers of sum-aggregation over a graph, each followed by a dense layer with a bias and a relu, as functions of
  the argument arrays over the extended reals, index by index.

  Node `n` carries the table row `word n`; an edge `e` runs from node `node e` to the node numbered `dst e`.
  A layer first adds up, for every node, the feature rows of the sources of the edges that end there, and then applies a
  matrix, a bias and a maximum with zero.  The second layer is written twice: with the matrix applied after the edge sum
  (`refOut`) and with the matrix applied to every node's row before the edge sum (`kerOut`).  Over real-valued
  inputs the two agree, because a finite sum of reals times a real is the sum of the products.
-/
import Idealize.ShloMosaic.PureOps.Ideal
import Idealize.ShloMosaic.Lib.ValueIdx

noncomputable section

namespace Cert.Gcn

open Idealize.ShloMosaic Idealize.ShloMosaic.ValueIdx
open scoped BigOperators

/-- A row number as numpy reads it: a negative one counts from the end (`i + N`), any other is itself. -/
def wrap (N i : BitVec 32) : BitVec 32 := Scalar.select (IntOp.cmpi .slt i 0#32) (IntOp.addi i N) i

/-- A row number read signed and clamped into `[0, N − 1]`: the row a gather reads. -/
def row (N : Nat) (hN : 0 < N) (i : BitVec 32) : Fin N := ⟨min i.toInt.toNat (N - 1), by omega⟩

/-- An in-range row number is its own wrap. -/
theorem wrap_of_nonneg (N i : BitVec 32) (h : 0 ≤ i.toInt) : wrap N i = i := by
  unfold wrap IntOp.cmpi
  have : i.slt 0#32 = false := by
    rw [BitVec.slt_eq_decide]; simp only [BitVec.toInt_zero, decide_eq_false_iff_not, not_lt]; exact h
  rw [this]; rfl

variable (emb : (⟨2, ![800000, 100]⟩ : Shape).Idx → EReal) (W1 : (⟨2, ![100, 200]⟩ : Shape).Idx → EReal)
  (b1 : (⟨1, ![200]⟩ : Shape).Idx → EReal) (W2 : (⟨2, ![200, 100]⟩ : Shape).Idx → EReal)
  (b2 : (⟨1, ![100]⟩ : Shape).Idx → EReal) (cid : IVec ⟨1, ![50000]⟩ 32) (src dst : IVec ⟨1, ![800000]⟩ 32)

/-- The node an edge starts from. -/
def node (e : Fin 800000) : Fin 50000 := row 50000 (by decide) (wrap 50000#32 (src (ix1 e)))

/-- The table row a node carries. -/
def word (n : Fin 50000) : Fin 800000 := row 800000 (by decide) (wrap 800000#32 (cid (ix1 n)))

/-- Layer 1's aggregation: the sum over the edges ending at `n` of the table rows of their sources. -/
def agg1 (n : Fin 50000) (d : Fin 100) : EReal :=
  ∑ e : Fin 800000, if (dst (ix1 e)).toInt = (n.val : Int) then emb (ix2 (word cid (node src e)) d) else 0

/-- Layer 1's output: the aggregation times `W1`, plus `b1`, against zero. -/
def hid (n : Fin 50000) (k : Fin 200) : EReal :=
  max (∑ d : Fin 100, agg1 emb cid src dst n d * W1 (ix2 d k) + b1 (ix1 k)) 0

/-- Layer 2 with the matrix after the edge sum. -/
def refOut (n : Fin 50000) (j : Fin 100) : EReal :=
  max (∑ k : Fin 200, (∑ e : Fin 800000, if (dst (ix1 e)).toInt = (n.val : Int)
      then hid emb W1 b1 cid src dst (node src e) k else 0) * W2 (ix2 k j) + b2 (ix1 j)) 0

/-- Layer 2 with the matrix applied to every node's row before the edge sum. -/
def kerOut (n : Fin 50000) (j : Fin 100) : EReal :=
  max ((∑ e : Fin 800000, if (dst (ix1 e)).toInt = (n.val : Int)
      then ∑ k : Fin 200, hid emb W1 b1 cid src dst (node src e) k * W2 (ix2 k j) else 0) + b2 (ix1 j)) 0

/-- A function of a node and a feature as the `[50000, 100]` array it tabulates. -/
def outArr (f : Fin 50000 → Fin 100 → EReal) : (⟨2, ![50000, 100]⟩ : Shape).Idx → EReal := fun i => f (i 0) (i 1)

theorem outArr_apply (f : Fin 50000 → Fin 100 → EReal) (n : Fin 50000) (j : Fin 100) : outArr f (ix2 n j) = f n j := rfl

end Cert.Gcn

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibScatterAddRows.lean ====
/-
  A float scatter-add that adds whole ROWS into a rank-2 table (what `segment_sum(x, ids, N)` prints for an `[n, C]` batch
  and a vector of `n` row numbers laid out as an `[n, 1]` column of scatter indices): update window axis 1, inserted
  window axis 0, the scatter index naming operand axis 0, the index vector along axis 1 of the scatter indices; and the same
  for a rank-1 table and a vector of updates (no window axis).

  Over the extended reals the result at `(k, q)` is the operand there plus the sum of the updates `(p, q)` whose row number,
  read signed and NOT clamped, is `k`; an update whose row number is outside `[0, N)` lands nowhere.
-/
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

/-- The dimension numbers of a row scatter into an `[N, C]` table by an `[n, 1]` column of row numbers. -/
abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The dimension numbers of an entry scatter into an `[N]` table by an `[n, 1]` column of entry numbers. -/
abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the row axis the start of update `(p, q)` is row number `p`, read signed: the one scatter index of update row `p`
    sits at `(p, 0)` of the column of scatter indices. -/
private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The column axis is named by no scatter index: its start is `0`. -/
private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

/-- The row axis is an inserted window axis: it has no window coordinate. -/
private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

/-- The column axis is the one window axis: its window coordinate is the update's own column. -/
private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

/-- Update `(p, q')` lands on `(k, q)` exactly when row number `p` is `k` and `q' = q`: it lands at (row number + 0, 0 + q')
    when that is inside the table, and nowhere otherwise; and `(k, q)` is inside the table. -/
private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

/-- THE ROW SCATTER-ADD READ AT `(k, q)`: the operand there plus the updates `(p, q)` of the rows `p` numbered `k`. -/
theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  -- the sum over the updates landing on `(k, q)`, as a double sum over `(p, q')` of the updates with row number `k` and `q' = q`
  rw [Finset.sum_filter, sum_idx2]
  refine Finset.sum_congr rfl fun p _ => ?_
  simp only [rows_resultIdx_iff]
  by_cases ht : (idx (ix2 p ⟨0, Nat.one_pos⟩)).toInt = (k.val : Int)
  · -- row `p` is numbered `k`: of its columns only `q' = q` remains
    simp only [ht, true_and, if_true]
    rw [Finset.sum_ite_eq' Finset.univ q (fun q' => upd (ix2 p q'))]
    simp
  · -- row `p` is not numbered `k`: every term is `0`
    simp only [ht, false_and, if_false]
    exact Finset.sum_const_zero

/-- The start of update `p` on the one operand axis is entry number `p`, read signed. -/
private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The one operand axis is an inserted window axis: it has no window coordinate. -/
private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

/-- Update `p` lands on `k` exactly when entry number `p` is `k`. -/
private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- THE ENTRY SCATTER-ADD READ AT `k`: the operand there plus the updates `p` numbered `k`. -/
theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  -- the sum over the updates landing on `k`, as the sum over `p` of the updates with entry number `k`
  rw [Finset.sum_filter, sum_idx1']
  refine Finset.sum_congr rfl fun p _ => ?_
  simp only [entries_resultIdx_iff]

end Idealize.ShloMosaic.ScatterAddRows
-- ==== Proof.TakeValue.lean ====
/-
  The row-takes with out-of-range rows filled, read at an entry whose row number is in range: the table at that row.
-/
import proofs.«413761_j19774029431051_2_alg».proof.Proof.HostTerms
import proofs.«413761_j19774029431051_2_alg».proof.Proof.Spec
import proofs.«413761_j19774029431051_2_alg».proof.Proof.LibGatherRows
import proofs.«413761_j19774029431051_2_alg».proof.Proof.LibScatterAddRows
import Idealize.ShloMosaic.Lib.ValueIdx
import Idealize.ShloMosaic.Lib.StableHlo.Predicate

set_option maxRecDepth 16384

noncomputable section

namespace Cert.KernelIdeal.Host

open Idealize.ShloMosaic Idealize.ShloMosaic.ValueIdx
open Cert.KernelIdeal Cert.KernelIdeal.Gen
open scoped BigOperators

/-! ## The pieces -/

/-- A left fold by `and` over bits that starts at 1 and meets only 1s comes out 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_one f l _ (IntOp.andi_eq_one.2 ⟨h, hl a (List.mem_cons.2 (Or.inl rfl))⟩)
      fun n hn => hl n (List.mem_cons.2 (Or.inr hn))

/-- A reduce by `and` from 1 is 1 at `j` when every operand entry that reduces into `j` is 1. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_one x _ _ hinit fun i hi => hx i ?_
  have := (List.mem_filter.1 hi).2
  simpa using this

/-- A vector laid along axis 0 of a rectangle reads, at `(p, q)`, the vector at `p`. -/
theorem bcast_axis0 {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  unfold broadcastInDim
  congr 1
  funext a
  match a with
  | ⟨0, _⟩ =>
    refine Fin.ext ?_
    split
    · next h1 =>
      have hn : n = 1 := h1
      have := p.isLt
      show 0 = p.val
      omega
    · rfl

/-- The wrapped row numbers as a column, at row `e`: the wrap of row number `e`. -/
theorem colV_wrapV (N : BitVec 32) (i : IVec S800000 32) (e : Fin 800000) :
    colV (wrapV N i) (ix2 e 0) = Cert.Gcn.wrap N (i (ix1 e)) := by
  unfold colV
  rw [bcast_axis0]
  rfl

/-- The in-range mask is 1 at a row whose number lies in `[0, hi]`. -/
theorem okV_apply (hi : BitVec 32) (col : IVec S800000x1 32) (e : Fin 800000)
    (h0 : 0 ≤ (col (ix2 e 0)).toInt) (h1 : (col (ix2 e 0)).toInt ≤ hi.toInt) : okV hi col (ix1 e) = 1#1 := by
  unfold okV
  refine reduce_andi_of_all _ _ _ _ _ rfl fun i hd => ?_
  have hi0 : i = ix2 e 0 := by
    rw [eq_ix2 i]
    have e0 : i 0 = e := by
      refine Fin.ext ?_
      have := congrArg (fun j : S800000.Idx => (j 0).val) hd
      rw [← Shape.ReducesTo.drop_apply_val_of_eq reducesTo_S800000x1_S800000_d1 i 0 0]
      exact this
    have e1 : i 1 = (0 : Fin 1) := by
      refine Fin.ext ?_
      have : (i 1).val < 1 := (i 1).isLt
      show (i 1).val = 0
      omega
    rw [e0, e1]
    rfl
  subst hi0
  show IntOp.andi (IntOp.cmpi .sge (col (ix2 e 0)) 0#32) (IntOp.cmpi .sle (col (ix2 e 0)) hi) = 1#1
  rw [IntOp.andi_eq_one, IntOp.cmpi_sge, IntOp.cmpi_sle]
  exact ⟨by simpa using h0, h1⟩

/-- A vector select at a lane is the scalar select of the lane's entries. -/
theorem select_apply {s : Shape} {α : Type} (c : IVec s 1) (a b : s.Idx → α) (j : s.Idx) :
    select c a b j = Scalar.select (c j) (a j) (b j) := rfl

/-- A lane select on a 1 bit is its first branch. -/
theorem select_one {α : Type} (a b : α) : Scalar.select 1#1 a b = a := if_pos rfl

/-- The rank-1 take at `e`: the table at the row number of `e`, read signed and clamped. -/
theorem gatherCid_apply (cid : IVec S50000 32) (idx : IVec S800000x1 32) (e : Fin 800000) :
    Host.gather gather_S50000_S800000x1_S800000_n_0_n_n_0_1_1 cid idx (ix1 e)
      = cid (ix1 (Cert.Gcn.row 50000 (by decide) (idx (ix2 e 0)))) := by
  have key := StableHlo.Predicate.gather_take gather_S50000_S800000x1_S800000_n_0_n_n_0_1_1 rfl rfl rfl rfl cid idx e
    (by decide)
  have e1 : ∀ {n : Nat} (p : Fin n), Shape.Idx.ofFin p = ix1 p := fun p => by
    funext a
    match a with
    | ⟨0, _⟩ => rfl
  have e2 : StableHlo.Predicate.ixP e = ix2 e 0 := by
    funext a
    match a with
    | ⟨0, _⟩ => rfl
    | ⟨1, _⟩ => rfl
  rw [e1, e1] at key
  rw [key]
  congr 2
  refine Fin.ext ?_
  show min (idx (StableHlo.Predicate.ixP e)).toInt.toNat (50000 - 1) = min (idx (ix2 e 0)).toInt.toNat (50000 - 1)
  rw [e2]

/-- The rank-2 row take at `(e, d)`, when row number `e` of the column is the word `w`: the table at row `w` (read
    signed and clamped), column `d`. -/
theorem gatherRows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (p : Fin n) (q : Fin C) {w : BitVec 32}
    (hw : idx (ix2 p 0) = w) :
    Host.gather (GatherRows.rowDims N C n wf) x idx (ix2 p q) = x (ix2 (Cert.Gcn.row N hN w) q) := by
  rw [GatherRows.gather_rows_apply hN wf x idx p q]
  exact congrArg (fun r : Fin N => x (ix2 r q))
    (Fin.ext (congrArg (fun v : BitVec 32 => min v.toInt.toNat (N - 1)) hw))

theorem toInt_49999 : (49999#32 : BitVec 32).toInt = 49999 := by decide
theorem toInt_799999 : (799999#32 : BitVec 32).toInt = 799999 := by decide

/-! ## The takes -/

/-- The take of words by node numbers at an edge whose node number is in range: the word of that node. -/
theorem takeCid_apply (cid : IVec S50000 32) (i : IVec S800000 32) (e : Fin 800000)
    (h0 : 0 ≤ (i (ix1 e)).toInt) (h1 : (i (ix1 e)).toInt < 50000) :
    takeCid cid i (ix1 e) = cid (ix1 (Cert.Gcn.row 50000 (by decide) (Cert.Gcn.wrap 50000#32 (i (ix1 e))))) := by
  have hcol : colV (wrapV 50000#32 i) (ix2 e 0) = i (ix1 e) :=
    (colV_wrapV _ _ _).trans (Cert.Gcn.wrap_of_nonneg _ _ h0)
  have hok : okV 49999#32 (colV (wrapV 50000#32 i)) (ix1 e) = 1#1 :=
    okV_apply _ _ e (by rw [hcol]; exact h0) (by rw [hcol, toInt_49999]; omega)
  unfold takeCid
  rw [select_apply, hok, select_one, gatherCid_apply, colV_wrapV]

/-- The take of table rows by words at an edge whose word is in range: the table row of that word. -/
theorem takeEmb_apply (emb : FVec Ideal S800000x100 .f32) (i : IVec S800000 32) (e : Fin 800000) (d : Fin 100)
    (h0 : 0 ≤ (i (ix1 e)).toInt) (h1 : (i (ix1 e)).toInt < 800000) :
    takeEmb emb i (ix2 e d) = emb (ix2 (Cert.Gcn.row 800000 (by decide) (Cert.Gcn.wrap 800000#32 (i (ix1 e)))) d) := by
  have hcol : colV (wrapV 800000#32 i) (ix2 e 0) = i (ix1 e) :=
    (colV_wrapV _ _ _).trans (Cert.Gcn.wrap_of_nonneg _ _ h0)
  have hok : okV 799999#32 (colV (wrapV 800000#32 i)) (ix1 e) = 1#1 :=
    okV_apply _ _ e (by rw [hcol]; exact h0) (by rw [hcol, toInt_799999]; omega)
  unfold takeEmb
  rw [select_apply, bcast_axis0, hok, select_one]
  exact gatherRows_apply (by decide) _ emb _ e d (colV_wrapV 800000#32 i e)

/-- The take of node rows by node numbers at an edge whose node number is in range: the row of that node. -/
theorem takeRows_apply (z : FVec Ideal S50000x100 .f32) (i : IVec S800000 32) (e : Fin 800000) (d : Fin 100)
    (h0 : 0 ≤ (i (ix1 e)).toInt) (h1 : (i (ix1 e)).toInt < 50000) :
    takeRows z i (ix2 e d) = z (ix2 (Cert.Gcn.row 50000 (by decide) (Cert.Gcn.wrap 50000#32 (i (ix1 e)))) d) := by
  have hcol : colV (wrapV 50000#32 i) (ix2 e 0) = i (ix1 e) :=
    (colV_wrapV _ _ _).trans (Cert.Gcn.wrap_of_nonneg _ _ h0)
  have hok : okV 49999#32 (colV (wrapV 50000#32 i)) (ix1 e) = 1#1 :=
    okV_apply _ _ e (by rw [hcol]; exact h0) (by rw [hcol, toInt_49999]; omega)
  unfold takeRows
  rw [select_apply, bcast_axis0, hok, select_one]
  exact gatherRows_apply (by decide) _ z _ e d (colV_wrapV 50000#32 i e)

end Cert.KernelIdeal.Host

end
-- ==== Proof.HostValue.lean ====
/-
  The edge sum, the zero paddings and the bias row of the kernel program's host operations, read at an entry.
-/
import proofs.«413761_j19774029431051_2_alg».proof.Proof.HostTerms
import proofs.«413761_j19774029431051_2_alg».proof.Proof.Spec
import proofs.«413761_j19774029431051_2_alg».proof.Proof.LibGatherRows
import proofs.«413761_j19774029431051_2_alg».proof.Proof.LibScatterAddRows
import Idealize.ShloMosaic.Lib.ValueIdx
import Idealize.ShloMosaic.Lib.StableHlo.Predicate
import Idealize.ShloMosaic.Lib.ValueLayout
import Idealize.ShloMosaic.Lib.Pipeline.Value
import Idealize.ShloMosaic.PureOps.Ideal.Laws

set_option maxRecDepth 16384

noncomputable section

namespace Cert.KernelIdeal.Host

open Idealize.ShloMosaic Idealize.ShloMosaic.ValueIdx
open Cert.KernelIdeal Cert.KernelIdeal.Gen
open scoped BigOperators

/-! ## The edge sum -/

/-- A vector laid out as a one-column array reads, at `(p, 0)`, the vector at `p`. -/
theorem column_apply (dst : IVec S800000 32) (p : Fin 800000) :
    broadcastInDim S800000x1 ![0] bcast_S800000_S800000x1_0 dst (ix2 p ⟨0, Nat.one_pos⟩) = dst (ix1 p) := by
  refine broadcastInDim_apply _ _ dst _ (ix1 p) fun a => ?_
  match a with
  | ⟨0, _⟩ =>
    show p.val = if (800000 : ℕ) = 1 then 0 else p.val
    rw [if_neg (by omega)]

/-- The printed dimension numbers are those of a row scatter by a column of row numbers. -/
theorem scatter_dims_eq : scatter_S50000x100_S800000x1_S800000x100_1_0_0_1
    = ScatterAddRows.rowDims 50000 100 800000 scatter_S50000x100_S800000x1_S800000x100_1_0_0_1_wf := rfl

/-- The edge sum as the row scatter-add of the extended reals, onto the zero table. -/
theorem segSum_eq (msgs : FVec Ideal S800000x100 .f32) (dst : IVec S800000 32) :
    segSum msgs dst = Ideal.hostScatterAdd
      (ScatterAddRows.rowDims 50000 100 800000 scatter_S50000x100_S800000x1_S800000x100_1_0_0_1_wf)
      (broadcastInDim S50000x100 ![] bcast_S_S50000x100 (constant (F := Ideal) S_ .f32 0x00000000#32))
      (broadcastInDim S800000x1 ![0] bcast_S800000_S800000x1_0 dst) msgs := by
  unfold segSum Host.scatterAdd
  rw [Ideal.hostScatterAdd_def, scatter_dims_eq]

/-- The edge sum at `(n, d)`: the sum of the rows of the edges whose end node is numbered `n`. -/
theorem segSum_apply (msgs : FVec Ideal S800000x100 .f32) (dst : IVec S800000 32) (n : Fin 50000) (d : Fin 100) :
    segSum msgs dst (ix2 n d) = ∑ e : Fin 800000, if (dst (ix1 e)).toInt = (n.val : Int) then msgs (ix2 e d) else 0 := by
  rw [segSum_eq, ScatterAddRows.scatterAdd_rows_apply]
  have hz : broadcastInDim S50000x100 ![] bcast_S_S50000x100 (constant (F := Ideal) S_ .f32 0x00000000#32) (ix2 n d) = 0 := by
    show Ideal.ofBits .f32 0x00000000#32 = 0
    exact Ideal.ofBits_zero_f32
  rw [hz, zero_add]
  refine Finset.sum_congr rfl fun e _ => ?_
  rw [column_apply]

/-! ## The zero paddings -/

/-- The padding value is zero: the integer zero read as a real. -/
theorem padZero_apply (i : S_.Idx) : padZero (F := Ideal) i = 0 := by
  show (((0#32 : BitVec 32).toInt : ℝ) : EReal) = 0
  simp

/-- The padded first weight matrix: the matrix on its own 200 columns, zero on the 56 padding columns. -/
theorem padW1_apply (w : FVec Ideal S100x200 .f32) (d : Fin 100) (k : Fin 256) :
    padW1 w (ix2 d k) = if h : k.val < 200 then w (ix2 d ⟨k.val, h⟩) else 0 := by
  unfold padW1 pad
  split
  · rename_i hin
    have h1 := (hin ⟨1, by decide⟩).2.2
    change (k.val - 0) / (0 + 1) < 200 at h1
    have hk : k.val < 200 := by omega
    rw [dif_pos hk]
    congr 1
    funext a
    apply Fin.ext
    match a with
    | ⟨0, _⟩ => show (d.val - 0) / (0 + 1) = d.val; omega
    | ⟨1, _⟩ => show (k.val - 0) / (0 + 1) = k.val; omega
  · rename_i hnin
    have hk : ¬ k.val < 200 := fun hk => hnin fun a => by
      match a with
      | ⟨0, _⟩ => show 0 ≤ d.val ∧ (d.val - 0) % (0 + 1) = 0 ∧ (d.val - 0) / (0 + 1) < 100; have := d.isLt; omega
      | ⟨1, _⟩ => show 0 ≤ k.val ∧ (k.val - 0) % (0 + 1) = 0 ∧ (k.val - 0) / (0 + 1) < 200; omega
    rw [dif_neg hk]
    exact padZero_apply _

/-- The padded first bias as a row: the bias on its own 200 entries, zero on the 56 padding entries. -/
theorem padB1_apply (b : FVec Ideal S200 .f32) (k : Fin 256) :
    padB1 b (ix2 0 k) = if h : k.val < 200 then b (ix1 ⟨k.val, h⟩) else 0 := by
  unfold padB1
  rw [shapeCast_a_1a_apply]
  unfold pad
  split
  · rename_i hin
    have h0 := (hin ⟨0, by decide⟩).2.2
    change (k.val - 0) / (0 + 1) < 200 at h0
    have hk : k.val < 200 := by omega
    rw [dif_pos hk]
    congr 1
    funext a
    apply Fin.ext
    match a with
    | ⟨0, _⟩ => show (k.val - 0) / (0 + 1) = k.val; omega
  · rename_i hnin
    have hk : ¬ k.val < 200 := fun hk => hnin fun a => by
      match a with
      | ⟨0, _⟩ => show 0 ≤ k.val ∧ (k.val - 0) % (0 + 1) = 0 ∧ (k.val - 0) / (0 + 1) < 200; omega
    rw [dif_neg hk]
    exact padZero_apply _

/-- The padded second weight matrix: the matrix on its own 200 rows, zero on the 56 padding rows. -/
theorem padW2_apply (w : FVec Ideal S200x100 .f32) (k : Fin 256) (j : Fin 100) :
    padW2 w (ix2 k j) = if h : k.val < 200 then w (ix2 ⟨k.val, h⟩ j) else 0 := by
  unfold padW2 pad
  split
  · rename_i hin
    have h0 := (hin ⟨0, by decide⟩).2.2
    change (k.val - 0) / (0 + 1) < 200 at h0
    have hk : k.val < 200 := by omega
    rw [dif_pos hk]
    congr 1
    funext a
    apply Fin.ext
    match a with
    | ⟨0, _⟩ => show (k.val - 0) / (0 + 1) = k.val; omega
    | ⟨1, _⟩ => show (j.val - 0) / (0 + 1) = j.val; omega
  · rename_i hnin
    have hk : ¬ k.val < 200 := fun hk => hnin fun a => by
      match a with
      | ⟨0, _⟩ => show 0 ≤ k.val ∧ (k.val - 0) % (0 + 1) = 0 ∧ (k.val - 0) / (0 + 1) < 200; omega
      | ⟨1, _⟩ => show 0 ≤ j.val ∧ (j.val - 0) % (0 + 1) = 0 ∧ (j.val - 0) / (0 + 1) < 100; have := j.isLt; omega
    rw [dif_neg hk]
    exact padZero_apply _

/-! ## The second bias -/

/-- The second bias as a row. -/
theorem rowB2_apply (b : FVec Ideal S100 .f32) (j : Fin 100) : rowB2 b (ix2 0 j) = b (ix1 j) := by
  unfold rowB2
  exact shapeCast_a_1a_apply b _ 0 j

end Cert.KernelIdeal.Host

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Region0.lean ====
import proofs.«413761_j19774029431051_2_alg».proof.Proof.Gen.KernelIdeal.Frame
import Idealize.ShloMosaic.Lib.ValueIdx
import Idealize.ShloMosaic.Lib.Pipeline.Value
import Idealize.ShloMosaic.PureOps.Ideal.Laws
import proofs.«413761_j19774029431051_2_alg».proof.Proof.LibPlainMatmul

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-! ## The body's value at an entry of its block -/

/-- The product's dimension numbers are the plain ones: rows by contraction times contraction by columns. -/
theorem dot0_eq : dot_S5000x100_S100x256_S5000x256_1_0_0_1_n_n = DotDims.plain 5000 100 256 := rfl

/-- The body's payload at entry (p, q) of its block: the row of the first operand against the column of the second,
    plus the bias at the column, cut off below at zero. -/
theorem pay0_apply (x : Vec Ideal S5000x100 .f32) (w : Vec Ideal S100x256 .f32) (b : Vec Ideal S1x256 .f32)
    (p : Fin 5000) (q : Fin 256) :
    k0_pay1 x w b (ix2 p q) = max ((∑ d : Fin 100, x (ix2 p d) * w (ix2 d q)) + b (ix2 0 q)) 0 := by
  unfold k0_pay1
  simp only [shapeCast_self]
  rw [maximumf_apply, addf_apply, broadcast_apply]
  -- the product into the zero accumulator: the narrowing of the operands is the identity on extended reals
  have hm : matmul (F := Ideal) dot_S5000x100_S100x256_S5000x256_1_0_0_1_n_n none (truncf FTy.bf16 (x : FVec Ideal S5000x100 FTy.f32) bitsLt_bf16_f32)
      (truncf FTy.bf16 (w : FVec Ideal S100x256 FTy.f32) bitsLt_bf16_f32) (constant S5000x256 FTy.f32 0x00000000#32) (ix2 p q)
      = ∑ d : Fin 100, x (ix2 p d) * w (ix2 d q) := by
    rw [dot0_eq]
    exact Cert.PlainMatmul.apply none _ _ p q
  -- the bias row broadcast down the rows reads its column
  have hb : broadcastTo S5000x256 (b : FVec Ideal S1x256 FTy.f32) broadcasts_S1x256_S5000x256 (ix2 p q) = b (ix2 0 q) :=
    broadcastTo_apply b _ (ix2 p q) (ix2 0 q) fun a => by
      match a with
      | ⟨0, _⟩ => rfl
      | ⟨1, _⟩ => rfl
  have hz : (FloatOps.ofBits FTy.f32 0x00000000#32 : Ideal FTy.f32) = 0 := Ideal.ofBits_zero_f32
  rw [hm, hb, hz]

/-! ## What a point writes back: its block of one function of the three arrays -/

/-- The zero offsets of a whole-buffer access, as the constant function. -/
theorem hz2 : (![0, 0] : Fin 2 → Nat) = fun _ => 0 := funext fun a => by fin_cases a <;> rfl

/-- The output array as ONE function of the three arrays, entry by entry: row of X against column of W, plus the bias at
    the column, cut off below at zero. -/
def G0 (X : FVec Ideal S50000x100 .f32) (W : FVec Ideal S100x256 .f32) (B : FVec Ideal S1x256 .f32) :
    FVec Ideal S50000x256 .f32 :=
  fun i => max ((∑ d : Fin 100, X (ix2 (i 0 : Fin 50000) d) * W (ix2 d (i 1 : Fin 256))) + B (ix2 0 (i 1 : Fin 256))) 0

/-- The index maps over the grid: the row-blocked windows sit at block row t, column block 0; the whole-array windows at
    block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back to the output array is block t of G0 of the three arrays as the region found them: the
    payload at entry (p, q) of the block reads row 5000 t + p of X, column q of W and column q of the bias. -/
theorem flushed3_eq (c : Dev nD) (t : Fin cfg0.N) :
    (dat0 (F := Ideal) V c).flushed 3 t
      = ((cfg0.win 3).blk t).view.read (Elt Ideal) (G0 (V c main_v4) (V c main_v5) (V c main_v7)) := by
  show (cfg0.win 3).cut (grid0.coords t) ((dat0 V c).after 3 t) = _
  rw [after0_3]
  unfold out0_3
  rw [View.canon_unit_zero hz2]
  simp only [View.ld_unit_zero (S := S5000x100) hz2, View.ld_unit_zero (S := S100x256) hz2, View.ld_unit_zero (S := S1x256) hz2]
  obtain ⟨e0, e1, e2, e3, e4, e5, e6, e7⟩ := idx_facts0 t
  funext j
  obtain ⟨p, q, rfl⟩ : ∃ (p : Fin 5000) (q : Fin 256), j = ix2 p q := ⟨j 0, j 1, eq_ix2 j⟩
  show k0_pay1 (iblk0 V c 0 t) (iblk0 V c 1 t) (iblk0 V c 2 t) (ix2 p q)
    = G0 (V c main_v4) (V c main_v5) (V c main_v7) (((cfg0.win 3).blk t).view.emb (ix2 p q))
  refine (pay0_apply _ _ _ p q).trans ?_
  -- each input block read at an entry is its array at the entry's coordinates in the array
  have h0 : ∀ d : Fin 100, iblk0 V c 0 t (ix2 p d)
      = (V c main_v4 : FVec Ideal S50000x100 .f32) (ix2 ((((cfg0.win 3).blk t).view.emb (ix2 p q)) 0 : Fin 50000) d) := fun d => by
    show V c main_v4 (((cfg0.win 0).blk t).view.emb (ix2 p d)) = _
    congr 1
    funext a; apply Fin.ext
    match a with
    | ⟨0, _⟩ => show win0_0.index t (0 : Fin 2) * 5000 + 1 * p.val = win0_3.index t (0 : Fin 2) * 5000 + 1 * p.val; rw [e0, e6]
    | ⟨1, _⟩ => show win0_0.index t (1 : Fin 2) * 100 + 1 * d.val = d.val; omega
  have h1 : ∀ d : Fin 100, iblk0 V c 1 t (ix2 d q)
      = (V c main_v5 : FVec Ideal S100x256 .f32) (ix2 d ((((cfg0.win 3).blk t).view.emb (ix2 p q)) 1 : Fin 256)) := fun d => by
    show V c main_v5 (((cfg0.win 1).blk t).view.emb (ix2 d q)) = _
    congr 1
    funext a; apply Fin.ext
    match a with
    | ⟨0, _⟩ => show win0_1.index t (0 : Fin 2) * 100 + 1 * d.val = d.val; omega
    | ⟨1, _⟩ => show win0_1.index t (1 : Fin 2) * 256 + 1 * q.val = win0_3.index t (1 : Fin 2) * 256 + 1 * q.val; rw [e3, e7]
  have h2 : iblk0 V c 2 t (ix2 (0 : Fin 1) q)
      = (V c main_v7 : FVec Ideal S1x256 .f32) (ix2 (0 : Fin 1) ((((cfg0.win 3).blk t).view.emb (ix2 p q)) 1 : Fin 256)) := by
    show V c main_v7 (((cfg0.win 2).blk t).view.emb (ix2 (0 : Fin 1) q)) = _
    congr 1
    funext a; apply Fin.ext
    match a with
    | ⟨0, _⟩ => show win0_2.index t (0 : Fin 2) * 1 + 1 * (0 : Fin 1).val = (0 : Fin 1).val; omega
    | ⟨1, _⟩ => show win0_2.index t (1 : Fin 2) * 256 + 1 * q.val = win0_3.index t (1 : Fin 2) * 256 + 1 * q.val; rw [e5, e7]
  simp only [h0, h1, h2]
  rfl

/-! ## The blocks cover the array, so it ends holding that function -/

/-- An entry of the array is in point t's block iff each coordinate is in the block's range on its axis. -/
theorem mem_blk3 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v8).slice (win0_3.rect t)).set ↔ _
  rw [View.set_slice_whole, Rect.mem_set_unit]
  exact Iff.rfl

/-- Every entry is written back by some point: row r lies in the block of point r / 5000. -/
theorem cover3 (i : S50000x256.Idx) :
    ∃ t : Fin cfg0.N, (cfg0.win 3).flush t = true ∧ i ∈ ((cfg0.win 3).blk t).view.set := by
  have hi0 : (i 0).val < 50000 := idx2_lt0 i
  have hi1 : (i 1).val < 256 := idx2_lt1 i
  have hN : grid0.N = 10 := N_0
  have hlt : (i 0).val / 5000 < cfg0.N := by show (i 0).val / 5000 < grid0.N; omega
  refine ⟨⟨(i 0).val / 5000, hlt⟩, flush0_3 _, ?_⟩
  rw [mem_blk3]
  obtain ⟨-, -, -, -, -, -, e6, e7⟩ := idx_facts0 ⟨(i 0).val / 5000, hlt⟩
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hlt⟩ (1 : Fin 2) * 256 ≤ (i 1).val
      ∧ (i 1).val < win0_3.index ⟨(i 0).val / 5000, hlt⟩ (1 : Fin 2) * 256 + 256
    rw [e7]; omega

/-- So after all the points the output array is G0 of the three arrays as the region found them. -/
theorem final3 (c : Dev nD) :
    (dat0 (F := Ideal) V c).arrAt 3 cfg0.N = G0 (V c main_v4) (V c main_v5) (V c main_v7) :=
  (dat0 (F := Ideal) V c).arrAt_eq_of_cover 3 _ (fun t _ => flushed3_eq V c t) (fun i => cover3 i)

/-- Region 0's arrays as it finds them, and its output array as it leaves it, at their literal types. -/
abbrev r0x (c : Dev nD) : FVec Ideal S50000x100 .f32 := V c main_v4
abbrev r0w (c : Dev nD) : FVec Ideal S100x256 .f32 := V c main_v5
abbrev r0b (c : Dev nD) : FVec Ideal S1x256 .f32 := V c main_v7
abbrev r0out (c : Dev nD) : FVec Ideal S50000x256 .f32 := (Gen.dat0 (F := Ideal) V c).arrAt 3 cfg0.N

theorem region0_value (c : Dev nD) (n : Fin 50000) (k : Fin 256) :
    r0out V c (ix2 n k) = max ((∑ d : Fin 100, r0x V c (ix2 n d) * r0w V c (ix2 d k)) + r0b V c (ix2 0 k)) 0 := by
  show (dat0 (F := Ideal) V c).arrAt 3 cfg0.N (ix2 n k) = _
  rw [final3 V c]
  rfl

end Cert.KernelIdeal.RegionValue

end
-- ==== Proof.Region1.lean ====
import proofs.«413761_j19774029431051_2_alg».proof.Proof.Gen.KernelIdeal.Frame
import proofs.«413761_j19774029431051_2_alg».proof.Proof.LibPlainMatmul
import Idealize.ShloMosaic.Lib.ValueIdx
import Idealize.ShloMosaic.Lib.Pipeline.Value
import Idealize.ShloMosaic.PureOps.Ideal.Laws

/-!
  Region 1 over the extended reals: the [50000, 100] output array ends as the matrix product of the [50000, 256] array
  it reads by the [256, 100] array it reads.

  The region walks ten points. Point t takes rows 5000 t … 5000 t + 4999 of the left array and the whole right array, and
  writes the product of the two blocks, taken into a zero accumulator, to rows 5000 t … 5000 t + 4999 of the output. An
  entry of a block product depends on one row of the left block only, and row p of block t is row 5000 t + p of the
  array, so every point writes its own rows of ONE whole-array product; the ten row blocks cover the output, row r lying
  in block r / 5000.
-/

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-- Region 1's arrays as it finds them, and its output array as it leaves it, at their literal types. -/
abbrev r1x (c : Dev nD) : FVec Ideal S50000x256 .f32 := V c main_v8
abbrev r1w (c : Dev nD) : FVec Ideal S256x100 .f32 := V c main_v9
abbrev r1out (c : Dev nD) : FVec Ideal S50000x100 .f32 := (Gen.dat1 (F := Ideal) V c).arrAt 2 cfg1.N

/-! ## One block product at an entry -/

/-- The body's dimension numbers contract the left operand's axis 1 with the right operand's axis 0 and have no batch
    axes: the plain [5000, 256] by [256, 100] product. -/
theorem r1_dims_plain : dot_S5000x256_S256x100_S5000x100_1_0_0_1_n_n = DotDims.plain 5000 256 100 := rfl

/-- Entry (p, q) of what the body stores: the narrowing of each operand is the identity on extended reals and the
    accumulator is zero, so it is the sum over k of x (p, k) * w (k, q). -/
theorem r1_block_product_entry (x : Vec Ideal S5000x256 .f32) (w : Vec Ideal S256x100 .f32) (p : Fin 5000) (q : Fin 100) :
    Gen.k1_pay1 (F := Ideal) x w (ix2 p q) = ∑ k : Fin 256, x (ix2 p k) * w (ix2 k q) := by
  unfold Gen.k1_pay1
  simp only [shapeCast_self]
  rw [r1_dims_plain]
  exact Cert.PlainMatmul.apply none _ _ p q

/-! ## The whole-array product, and a block of it -/

/-- The [50000, 256] by [256, 100] product, entry by entry. -/
def r1_product (x : FVec Ideal S50000x256 .f32) (w : FVec Ideal S256x100 .f32) : FVec Ideal S50000x100 .f32 :=
  fun i => ∑ k : Fin 256, x (ix2 (i 0) k) * w (ix2 k (i 1))

/-- If the left block X is rows 5000 t … 5000 t + 4999 of x and the right block W is all of w, the block product's entry
    (p, q) is the whole product's entry (5000 t + p, q): both are the same sum over k, term by term. -/
theorem r1_block_of_product (X : Vec Ideal S5000x256 .f32) (W : Vec Ideal S256x100 .f32)
    (x : FVec Ideal S50000x256 .f32) (w : FVec Ideal S256x100 .f32) (t : ℕ)
    (hX : ∀ (y : S5000x256.Idx) (i : S50000x256.Idx), (i 0).val = 5000 * t + (y 0).val → (i 1).val = (y 1).val → X y = x i)
    (hW : ∀ y : S256x100.Idx, W y = w y)
    (y : S5000x100.Idx) (i : S50000x100.Idx) (h0 : (i 0).val = 5000 * t + (y 0).val) (h1 : (i 1).val = (y 1).val) :
    Gen.k1_pay1 (F := Ideal) X W y = r1_product x w i := by
  obtain ⟨p, q, rfl⟩ : ∃ (p : Fin 5000) (q : Fin 100), y = ix2 p q := ⟨y 0, y 1, eq_ix2 y⟩
  rw [r1_block_product_entry]
  unfold r1_product
  refine Finset.sum_congr rfl fun k _ => ?_
  rw [hX (ix2 p k) (ix2 (i 0) k) h0 rfl, hW (ix2 k q)]
  have e : (ix2 k q : S256x100.Idx) = ix2 k (i 1) := by
    funext a; match a with | ⟨0, _⟩ => rfl | ⟨1, _⟩ => exact Fin.ext h1.symm
  rw [e]
  rfl

/-! ## The blocks a point reads and writes -/

theorem r1_offsets_zero : (![0, 0] : Fin 2 → Nat) = fun _ => 0 := funext fun a => by fin_cases a <;> rfl

/-- The block indices at point t: the left array's and the output's blocks are row block t (column block 0), the right
    array's is block (0, 0). -/
theorem r1_block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left block at point t is entry (5000 t + p, k) of the left array. -/
theorem r1_left_block_entry (c : Dev nD) (t : Fin cfg1.N) (y : S5000x256.Idx) (i : S50000x256.Idx)
    (h0 : (i 0).val = 5000 * t.val + (y 0).val) (h1 : (i 1).val = (y 1).val) :
    (iblk1 (F := Ideal) V c 0 t : Vec Ideal S5000x256 .f32) y = r1x V c i := by
  obtain ⟨e0, e1, -⟩ := r1_block_indices t
  unfold iblk1
  rw [View.read_apply]
  show V c main_v8 _ = V c main_v8 i
  congr 1
  funext a
  apply Fin.ext
  match a with
  | ⟨0, _⟩ => show win1_0.index t 0 * 5000 + 1 * (y 0).val = (i 0).val; rw [e0, h0]; omega
  | ⟨1, _⟩ => show win1_0.index t 1 * 256 + 1 * (y 1).val = (i 1).val; rw [e1, h1]; omega

/-- The right block at every point is the whole right array. -/
theorem r1_right_block_entry (c : Dev nD) (t : Fin cfg1.N) (y : S256x100.Idx) :
    (iblk1 (F := Ideal) V c 1 t : Vec Ideal S256x100 .f32) y = r1w V c y := by
  obtain ⟨-, -, e2, e3, -⟩ := r1_block_indices t
  unfold iblk1
  rw [View.read_apply]
  show V c main_v9 _ = V c main_v9 y
  congr 1
  funext a
  apply Fin.ext
  match a with
  | ⟨0, _⟩ => show win1_1.index t 0 * 256 + 1 * (y 0).val = (y 0).val; rw [e2]; omega
  | ⟨1, _⟩ => show win1_1.index t 1 * 100 + 1 * (y 1).val = (y 1).val; rw [e3]; omega

/-- What point t writes back is rows 5000 t … 5000 t + 4999 of the whole-array product: the body's one store covers its
    buffer, its loads read the two blocks whole, and entry (p, q) of the output's block sits at (5000 t + p, q). -/
theorem r1_block_written (c : Dev nD) (t : Fin cfg1.N) :
    (dat1 (F := Ideal) V c).flushed 2 t = ((cfg1.win 2).blk t).view.read (Elt Ideal) (r1_product (r1x V c) (r1w V c)) := by
  show (cfg1.win 2).cut (grid1.coords t) ((dat1 V c).after 2 t) = _
  rw [after1_2]
  unfold out1_2
  rw [View.canon_unit_zero r1_offsets_zero]
  simp only [View.ld_unit_zero (S := S5000x256) r1_offsets_zero, View.ld_unit_zero (S := S256x100) r1_offsets_zero]
  obtain ⟨-, -, -, -, e4, e5⟩ := r1_block_indices t
  funext j
  refine r1_block_of_product (iblk1 V c 0 t) (iblk1 V c 1 t) (r1x V c) (r1w V c) t.val
    (r1_left_block_entry V c t) (r1_right_block_entry V c t) _ _ ?_ ?_
  · show win1_2.index t 0 * 5000 + 1 * (j 0).val = 5000 * t.val + (j 0).val
    rw [e4]; omega
  · show win1_2.index t 1 * 100 + 1 * (j 1).val = (j 1).val
    rw [e5]; omega

/-! ## The ten row blocks cover the output -/

/-- An index of the output is in point t's block iff each coordinate is in the block's range on its axis. -/
theorem r1_mem_block (t : Fin cfg1.N) (i : S50000x100.Idx) :
    i ∈ ((cfg1.win 2).blk t).view.set ↔ ∀ a : Fin 2, win1_2.index t a * S5000x100.size a ≤ (i a).val ∧ (i a).val < win1_2.index t a * S5000x100.size a + S5000x100.size a := by
  show i ∈ ((View.whole main_v10).slice (win1_2.rect t)).set ↔ _
  rw [View.set_slice_whole, Rect.mem_set_unit]
  exact Iff.rfl

/-- Row r of the output is written by point r / 5000, and every point writes its block back. -/
theorem r1_row_covered (i : S50000x100.Idx) :
    ∃ t : Fin cfg1.N, (cfg1.win 2).flush t = true ∧ i ∈ ((cfg1.win 2).blk t).view.set := by
  have hN : cfg1.N = 10 := N_1
  have hi0 : (i 0).val < 50000 := (i 0).isLt
  have hi1 : (i 1).val < 100 := (i 1).isLt
  obtain ⟨t, ht⟩ : ∃ t : Fin cfg1.N, t.val = (i 0).val / 5000 := ⟨⟨(i 0).val / 5000, by rw [hN]; omega⟩, rfl⟩
  obtain ⟨-, -, -, -, e4, e5⟩ := r1_block_indices t
  refine ⟨t, flush1_2 t, ?_⟩
  rw [r1_mem_block]
  intro a
  match a with
  | ⟨0, _⟩ => show win1_2.index t 0 * 5000 ≤ (i 0).val ∧ (i 0).val < win1_2.index t 0 * 5000 + 5000; rw [e4, ht]; omega
  | ⟨1, _⟩ => show win1_2.index t 1 * 100 ≤ (i 1).val ∧ (i 1).val < win1_2.index t 1 * 100 + 100; rw [e5]; omega

/-- So after the ten points the output array is the whole-array product. -/
theorem r1_out_is_product (c : Dev nD) : r1out V c = r1_product (r1x V c) (r1w V c) :=
  (dat1 (F := Ideal) V c).arrAt_eq_of_cover 2 (r1_product (r1x V c) (r1w V c)) (fun t _ => r1_block_written V c t) r1_row_covered

theorem region1_value (c : Dev nD) (n : Fin 50000) (j : Fin 100) :
    r1out V c (ix2 n j) = ∑ k : Fin 256, r1x V c (ix2 n k) * r1w V c (ix2 k j) :=
  congrFun (r1_out_is_product V c) (ix2 n j)

end Cert.KernelIdeal.RegionValue

end
-- ==== Proof.Region2.lean ====
import proofs.«413761_j19774029431051_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-- Region 2's arrays as it finds them, and its output array as it leaves it, at their literal types. -/
abbrev r2x (c : Dev nD) : FVec Ideal S50000x100 .f32 := V c main_v14
abbrev r2b (c : Dev nD) : FVec Ideal S1x100 .f32 := V c main_v15
abbrev r2out (c : Dev nD) : FVec Ideal S50000x100 .f32 := (Gen.dat2 (F := Ideal) V c).arrAt 2 cfg2.N

/-! ## The body's arithmetic at one element of a block -/

/-- A whole-buffer access starts at offset zero on both axes. -/
theorem r2_offsets_zero : (![0, 0] : Fin 2 → Nat) = fun _ => 0 := funext fun a => by fin_cases a <;> rfl

/-- One element of what the body stores: the block's element plus the bias of its column, clamped below at zero. -/
theorem r2_payload_ix (x0 : Vec Ideal S5000x100 .f32) (x1 : Vec Ideal S1x100 .f32) (p : Fin 5000) (q : Fin 100) :
    k2_pay1 (F := Ideal) x0 x1 (ix2 p q) = max (x0 (ix2 p q) + x1 (ix2 0 q)) 0 := by
  unfold k2_pay1
  rw [maximumf_apply, addf_apply, broadcast_apply, shapeCast_self, shapeCast_self, broadcastTo_1b_ab_apply]
  show max (x0 (ix2 p q) + x1 (ix2 0 q)) (Ideal.ofBits .f32 0x00000000#32) = _
  rw [Ideal.ofBits_zero_f32]

/-- The same, at any index of the block. -/
theorem r2_payload_apply (x0 : Vec Ideal S5000x100 .f32) (x1 : Vec Ideal S1x100 .f32) (j : S5000x100.Idx) :
    k2_pay1 (F := Ideal) x0 x1 j = max (x0 j + x1 (ix2 0 (j 1))) 0 := by
  obtain ⟨p, q, rfl⟩ : ∃ (p : Fin 5000) (q : Fin 100), j = ix2 p q := ⟨j 0, j 1, eq_ix2 j⟩
  exact r2_payload_ix x0 x1 p q

/-! ## The whole array as one function of the region's two arrays -/

/-- The bias row added to every row of the array, each element then clamped below at zero. -/
def r2_biasRelu (x : FVec Ideal S50000x100 .f32) (b : FVec Ideal S1x100 .f32) : FVec Ideal S50000x100 .f32 :=
  fun i => max (x i + b (ix2 0 (i 1))) 0

/-- The three windows' block indices at every grid point: the row windows sit at block row `t`, column block 0;
    the bias window always at its one block. -/
theorem r2_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of `r2_biasRelu` of the two arrays. -/
theorem r2_block_written (c : Dev nD) (t : Fin cfg2.N) :
    (dat2 (F := Ideal) V c).flushed 2 t
      = ((cfg2.win 2).blk t).view.read (Elt Ideal) (r2_biasRelu (r2x V c) (r2b V c)) := by
  show (cfg2.win 2).cut (grid2.coords t) ((dat2 (F := Ideal) V c).after 2 t) = _
  rw [after2_2]
  unfold out2_2
  rw [View.canon_unit_zero r2_offsets_zero]
  simp only [View.ld_unit_zero (S := S5000x100) r2_offsets_zero, View.ld_unit_zero (S := S1x100) r2_offsets_zero]
  obtain ⟨e00, e01, e10, e11, e20, e21⟩ := r2_index_facts t
  funext j
  refine (r2_payload_apply (iblk2 V c 0 t) (iblk2 V c 1 t) j).trans ?_
  show max (r2x V c (((cfg2.win 0).blk t).view.emb j) + r2b V c (((cfg2.win 1).blk t).view.emb (ix2 0 (j 1)))) 0
      = max (r2x V c (((cfg2.win 2).blk t).view.emb j) + r2b V c (ix2 0 ((((cfg2.win 2).blk t).view.emb j) 1))) 0
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 100 + 1 * (j 1).val = win2_2.index t (1 : Fin 2) * 100 + 1 * (j 1).val; omega
  have h1 : ((cfg2.win 1).blk t).view.emb (ix2 0 (j 1)) = ix2 0 ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 100 + 1 * (j 1).val = win2_2.index t (1 : Fin 2) * 100 + 1 * (j 1).val; omega
  rw [h0, h1]
  rfl

/-! ## The output's blocks tile its array -/

/-- An index is in point `t`'s block of the output exactly when each coordinate is in the block's range on its axis. -/
theorem r2_mem_block (t : Fin cfg2.N) (i : S50000x100.Idx) :
    i ∈ ((cfg2.win 2).blk t).view.set ↔ ∀ a : Fin 2, win2_2.index t a * S5000x100.size a ≤ (i a).val
      ∧ (i a).val < win2_2.index t a * S5000x100.size a + S5000x100.size a := by
  show i ∈ ((View.whole main_v16).slice (win2_2.rect t)).set ↔ _
  rw [View.set_slice_whole, Rect.mem_set_unit]
  exact Iff.rfl

/-- Row `r` of the output lies in the block of grid point `r / 5000`, and every point writes back. -/
theorem r2_covered (i : S50000x100.Idx) :
    ∃ t : Fin cfg2.N, (cfg2.win 2).flush t = true ∧ i ∈ ((cfg2.win 2).blk t).view.set := by
  have hi0 : (i 0).val < 50000 := (i 0).isLt
  have hi1 : (i 1).val < 100 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e20, e21⟩ := r2_index_facts t
  refine ⟨t, flush2_2 t, ?_⟩
  rw [r2_mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 100 ≤ (i 1).val ∧ (i 1).val < win2_2.index t (1 : Fin 2) * 100 + 100
    omega

/-! ## The array after the region -/

/-- After all ten points the output array is `r2_biasRelu` of the two arrays the region found. -/
theorem r2_array (c : Dev nD) : r2out V c = r2_biasRelu (r2x V c) (r2b V c) :=
  (dat2 (F := Ideal) V c).arrAt_eq_of_cover 2 (r2_biasRelu (r2x V c) (r2b V c))
    (fun t _ => r2_block_written V c t) r2_covered

theorem region2_value (c : Dev nD) (n : Fin 50000) (j : Fin 100) :
    r2out V c (ix2 n j) = max (r2x V c (ix2 n j) + r2b V c (ix2 0 j)) 0 :=
  congrFun (r2_array V c) (ix2 n j)

end Cert.KernelIdeal.RegionValue

end
-- ==== Proof.KernelValue.lean ====
/-
  The kernel program's result array, index by index, as `kerOut` of the argument arrays at launch, when the node
  numbers and the words are in range: region 0 leaves layer 1's output (zero on the 56 padding columns), region 1 its
  product with the second weight matrix (the padding rows of the matrix and the padding columns of the operand
  contribute zeros), and region 2 the edge sum of those rows plus the bias, against zero.
-/
import proofs.«413761_j19774029431051_2_alg».proof.Proof.HostEntry
import proofs.«413761_j19774029431051_2_alg».proof.Proof.TakeValue
import proofs.«413761_j19774029431051_2_alg».proof.Proof.HostValue
import proofs.«413761_j19774029431051_2_alg».proof.Proof.Region0
import proofs.«413761_j19774029431051_2_alg».proof.Proof.Region1
import proofs.«413761_j19774029431051_2_alg».proof.Proof.Region2
import proofs.«413761_j19774029431051_2_alg».proof.Proof.Spec

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Host Cert.KernelIdeal.RegionValue Cert.Gcn
open scoped BigOperators

/-- A sum over 256 indices whose last 56 terms are zero is the sum over the first 200. -/
theorem sum_first200 (g : Fin 256 → EReal) (hg : ∀ k : Fin 256, 200 ≤ k.val → g k = 0) :
    ∑ k : Fin 256, g k = ∑ k : Fin 200, g ⟨k.val, by omega⟩ := by
  have h := Fin.sum_univ_add (a := 200) (b := 56) (fun k : Fin (200 + 56) => g ⟨k.val, k.isLt⟩)
  have h2 : ∑ k : Fin 56, g ⟨(Fin.natAdd 200 k).val, (Fin.natAdd 200 k).isLt⟩ = 0 :=
    Finset.sum_eq_zero fun k _ => hg _ (by simp [Fin.natAdd])
  calc ∑ k : Fin 256, g k = ∑ k : Fin (200 + 56), g ⟨k.val, k.isLt⟩ := rfl
    _ = ∑ k : Fin 200, g ⟨(Fin.castAdd 56 k).val, (Fin.castAdd 56 k).isLt⟩ + 0 := by rw [h, h2]
    _ = ∑ k : Fin 200, g ⟨k.val, by omega⟩ := by rw [add_zero]; rfl

variable (m : (ℓ : Loc nD τ sig) → Buf (Elt Ideal) ℓ) (ρ : Dev nD → PrngReg) (c : Dev nD)
  (hcid : ∀ n : Fin 50000, 0 ≤ (aCid m c (ix1 n)).toInt ∧ (aCid m c (ix1 n)).toInt < 800000)
  (hsrc : ∀ e : Fin 800000, 0 ≤ (aSrc m c (ix1 e)).toInt ∧ (aSrc m c (ix1 e)).toInt < 50000)

include hcid hsrc in
/-- The word taken for an edge is the word of the edge's source node, and the table row taken for it that word's row. -/
theorem msgs1_apply (e : Fin 800000) (d : Fin 100) :
    takeEmb (aEmb m c) (takeCid (aCid m c) (aSrc m c)) (ix2 e d)
      = aEmb m c (ix2 (word (aCid m c) (node (aSrc m c) e)) d) := by
  have hc : takeCid (aCid m c) (aSrc m c) (ix1 e) = aCid m c (ix1 (node (aSrc m c) e)) :=
    takeCid_apply (aCid m c) (aSrc m c) e (hsrc e).1 (hsrc e).2
  rw [takeEmb_apply (aEmb m c) _ e d (by rw [hc]; exact (hcid _).1) (by rw [hc]; exact (hcid _).2), hc]
  rfl

include hcid hsrc in
/-- Region 0's first input array is layer 1's aggregation. -/
theorem x0_apply (n : Fin 50000) (d : Fin 100) :
    r0x (V7 m ρ) c (ix2 n d) = agg1 (aEmb m c) (aCid m c) (aSrc m c) (aDst m c) n d := by
  have e0 : r0x (V7 m ρ) c = segSum (takeEmb (aEmb m c) (takeCid (aCid m c) (aSrc m c))) (aDst m c) := entry0_x m ρ c
  rw [e0, segSum_apply]
  unfold agg1
  exact Finset.sum_congr rfl fun e _ => by rw [msgs1_apply m c hcid hsrc e d]

include hcid hsrc in
/-- Region 0's output array: layer 1's output on its own 200 columns, zero on the 56 padding columns. -/
theorem h1_apply (n : Fin 50000) (k : Fin 256) :
    r0out (V7 m ρ) c (ix2 n k)
      = if h : k.val < 200 then hid (aEmb m c) (aW1 m c) (aB1 m c) (aCid m c) (aSrc m c) (aDst m c) n ⟨k.val, h⟩ else 0 := by
  rw [region0_value]
  have hw : ∀ d : Fin 100, r0w (V7 m ρ) c (ix2 d k) = if h : k.val < 200 then aW1 m c (ix2 d ⟨k.val, h⟩) else 0 := fun d => by
    show (V7 m ρ c main_v5 : FVec Ideal S100x256 .f32) (ix2 d k) = _
    rw [entry0_w, padW1_apply]
  have hb : r0b (V7 m ρ) c (ix2 0 k) = if h : k.val < 200 then aB1 m c (ix1 ⟨k.val, h⟩) else 0 := by
    show (V7 m ρ c main_v7 : FVec Ideal S1x256 .f32) (ix2 0 k) = _
    rw [entry0_b, padB1_apply]
  have hsum : ∑ d : Fin 100, r0x (V7 m ρ) c (ix2 n d) * r0w (V7 m ρ) c (ix2 d k)
      = ∑ d : Fin 100, agg1 (aEmb m c) (aCid m c) (aSrc m c) (aDst m c) n d
          * (if h : k.val < 200 then aW1 m c (ix2 d ⟨k.val, h⟩) else 0) :=
    Finset.sum_congr rfl fun d _ => by rw [x0_apply m ρ c hcid hsrc n d, hw d]
  rw [hsum, hb]
  by_cases h : k.val < 200
  · simp only [dif_pos h]; rfl
  · simp only [dif_neg h, mul_zero, Finset.sum_const_zero, add_zero, max_self]

include hcid hsrc in
/-- Region 1's output array: layer 1's output times the second weight matrix. -/
theorem z_apply (n : Fin 50000) (j : Fin 100) :
    r1out (V10 m ρ) c (ix2 n j)
      = ∑ k : Fin 200, hid (aEmb m c) (aW1 m c) (aB1 m c) (aCid m c) (aSrc m c) (aDst m c) n k * aW2 m c (ix2 k j) := by
  rw [region1_value]
  have hx : ∀ k : Fin 256, r1x (V10 m ρ) c (ix2 n k)
      = if h : k.val < 200 then hid (aEmb m c) (aW1 m c) (aB1 m c) (aCid m c) (aSrc m c) (aDst m c) n ⟨k.val, h⟩ else 0 := fun k => by
    show (V10 m ρ c main_v8 : FVec Ideal S50000x256 .f32) (ix2 n k) = _
    rw [entry1_x]
    exact h1_apply m ρ c hcid hsrc n k
  have hw : ∀ k : Fin 256, r1w (V10 m ρ) c (ix2 k j) = if h : k.val < 200 then aW2 m c (ix2 ⟨k.val, h⟩ j) else 0 := fun k => by
    show (V10 m ρ c main_v9 : FVec Ideal S256x100 .f32) (ix2 k j) = _
    rw [entry1_w, padW2_apply]
  have hsum : ∑ k : Fin 256, r1x (V10 m ρ) c (ix2 n k) * r1w (V10 m ρ) c (ix2 k j)
      = ∑ k : Fin 256, (if h : k.val < 200 then hid (aEmb m c) (aW1 m c) (aB1 m c) (aCid m c) (aSrc m c) (aDst m c) n ⟨k.val, h⟩ else 0)
          * (if h : k.val < 200 then aW2 m c (ix2 ⟨k.val, h⟩ j) else 0) :=
    Finset.sum_congr rfl fun k _ => by rw [hx k, hw k]
  rw [hsum, sum_first200 _ fun k hk => by simp only [dif_neg (show ¬ k.val < 200 by omega), mul_zero]]
  exact Finset.sum_congr rfl fun k _ => by simp only [dif_pos k.isLt]

include hcid hsrc in
/-- The result array at `(n, j)`. -/
theorem result_apply (n : Fin 50000) (j : Fin 100) :
    r2out (V13 m ρ) c (ix2 n j)
      = kerOut (aEmb m c) (aW1 m c) (aB1 m c) (aW2 m c) (aB2 m c) (aCid m c) (aSrc m c) (aDst m c) n j := by
  rw [region2_value]
  have hx : r2x (V13 m ρ) c (ix2 n j) = ∑ e : Fin 800000, if (aDst m c (ix1 e)).toInt = (n.val : Int)
      then ∑ k : Fin 200, hid (aEmb m c) (aW1 m c) (aB1 m c) (aCid m c) (aSrc m c) (aDst m c) (node (aSrc m c) e) k * aW2 m c (ix2 k j)
      else 0 := by
    have e2 : r2x (V13 m ρ) c = segSum (takeRows (r1out (V10 m ρ) c) (aSrc m c)) (aDst m c) := entry2_x m ρ c
    rw [e2, segSum_apply]
    refine Finset.sum_congr rfl fun e _ => ?_
    rw [takeRows_apply _ (aSrc m c) e j (hsrc e).1 (hsrc e).2]
    exact congrArg (fun t => if (aDst m c (ix1 e)).toInt = (n.val : Int) then t else 0)
      (z_apply m ρ c hcid hsrc (node (aSrc m c) e) j)
  have hb : r2b (V13 m ρ) c (ix2 0 j) = aB2 m c (ix1 j) := by
    show (V13 m ρ c main_v15 : FVec Ideal S1x100 .f32) (ix2 0 j) = _
    rw [entry2_b, rowB2_apply]
  rw [hx, hb]
  rfl

include hcid hsrc in
/-- The result array is `kerOut` of the argument arrays at launch. -/
theorem result_arr :
    W14 m ρ c (Proc.devRef .tc main_v16)
      = outArr (kerOut (aEmb m c) (aW1 m c) (aB1 m c) (aW2 m c) (aB2 m c) (aCid m c) (aSrc m c) (aDst m c)) := by
  rw [result_eq]
  funext i
  obtain ⟨n, j, rfl⟩ : ∃ (n : Fin 50000) (j : Fin 100), i = ix2 n j := ⟨i 0, i 1, eq_ix2 i⟩
  exact result_apply m ρ c hcid hsrc n j

end Cert.KernelIdeal.KernelValue

end
-- ==== Proof.RefValue.lean ====
import proofs.«413761_j19774029431051_2_alg».proof.Proof.Gen.ReferenceIdeal.Run
import proofs.«413761_j19774029431051_2_alg».proof.Proof.Gen.ReferenceIdeal.Read
import proofs.«413761_j19774029431051_2_alg».proof.Proof.Spec
import proofs.«413761_j19774029431051_2_alg».proof.Proof.LibGatherRows
import proofs.«413761_j19774029431051_2_alg».proof.Proof.LibScatterAddRows
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen
open scoped BigOperators

/-!
  The reference's result, read index by index.

  The program gathers the table rows of the nodes (row numbers wrapped, a negative one counting from the end, then clamped by the
  gather), gathers those by the edges' sources, adds them up per destination node into a zero array, multiplies by the
  first matrix, adds the first bias and takes the maximum with zero; then does the same once more on the result with the
  second matrix and bias.  Each stage is read at an index from the stages before it: a column of row numbers at `(p, 0)`
  is the wrapped number of `p`; a row-take at `(p, q)` is the table at the clamped row; a row scatter-add into zeros at
  `(n, q)` is the sum over the edges numbered `n` of the update rows; a product with a matrix is the sum over the one
  contracted axis.  Chained, the last stage at `(n, j)` is `refOut` there.
-/

section Stages

variable (x0 : (⟨S800000x100, .f32⟩ : BufTy).Contents (Elt Ideal)) (x1 : (⟨S100x200, .f32⟩ : BufTy).Contents (Elt Ideal))
  (x2 : (⟨S200, .f32⟩ : BufTy).Contents (Elt Ideal)) (x3 : (⟨S200x100, .f32⟩ : BufTy).Contents (Elt Ideal))
  (x4 : (⟨S100, .f32⟩ : BufTy).Contents (Elt Ideal)) (x5 : (⟨S50000, .i32⟩ : BufTy).Contents (Elt Ideal))
  (x6 x7 : (⟨S800000, .i32⟩ : BufTy).Contents (Elt Ideal))

/-- The column of start rows of the edge sources, at row `e`: the wrapped source number of edge `e`. -/
theorem col_idx12 (e : Fin 800000) : Read.idx_main_v12 (ix2 e ⟨0, Nat.one_pos⟩) = ix1 e :=
  funext fun a => Fin.ext (by match a with | ⟨0, _⟩ => rfl)

theorem col12 (e : Fin 800000) :
    Read.val_main_v12 (F := Ideal) x6 (ix2 e ⟨0, Nat.one_pos⟩) = Cert.Gcn.wrap 50000#32 (x6 (ix1 e)) := by
  rw [Read.val_main_v12_apply, Read.val_main_v11_apply, Read.val_main_v8_apply, Read.val_main_v7_apply,
    Read.val_main_c_1_apply, Read.val_main_v10_apply, Read.val_main_v9_apply, Read.val_main_c_2_apply, col_idx12]
  rfl

theorem col_idx27 (e : Fin 800000) : Read.idx_main_v27 (ix2 e ⟨0, Nat.one_pos⟩) = ix1 e :=
  funext fun a => Fin.ext (by match a with | ⟨0, _⟩ => rfl)

theorem col27 (e : Fin 800000) :
    Read.val_main_v27 (F := Ideal) x6 (ix2 e ⟨0, Nat.one_pos⟩) = Cert.Gcn.wrap 50000#32 (x6 (ix1 e)) := by
  rw [Read.val_main_v27_apply, Read.val_main_v26_apply, Read.val_main_v23_apply, Read.val_main_v22_apply,
    Read.val_main_c_3_apply, Read.val_main_v25_apply, Read.val_main_v24_apply, Read.val_main_c_4_apply, col_idx27]
  rfl

theorem col_idx5 (n : Fin 50000) : Read.idx_main_v5 (ix2 n ⟨0, Nat.one_pos⟩) = ix1 n :=
  funext fun a => Fin.ext (by match a with | ⟨0, _⟩ => rfl)

theorem col5 (n : Fin 50000) :
    Read.val_main_v5 (F := Ideal) x5 (ix2 n ⟨0, Nat.one_pos⟩) = Cert.Gcn.wrap 800000#32 (x5 (ix1 n)) := by
  rw [Read.val_main_v5_apply, Read.val_main_v4_apply, Read.val_main_v1_apply, Read.val_main_v0_apply,
    Read.val_main_c_apply, Read.val_main_v3_apply, Read.val_main_v2_apply, Read.val_main_c_0_apply, col_idx5]
  rfl

theorem col_idx15 (e : Fin 800000) : Read.idx_main_v15 (ix2 e ⟨0, Nat.one_pos⟩) = ix1 e :=
  funext fun a => Fin.ext (by match a with | ⟨0, _⟩ => rfl)

theorem col15 (e : Fin 800000) :
    Read.val_main_v15 (F := Ideal) x7 (ix2 e ⟨0, Nat.one_pos⟩) = x7 (ix1 e) := by
  rw [Read.val_main_v15_apply, col_idx15]

theorem col_idx30 (e : Fin 800000) : Read.idx_main_v30 (ix2 e ⟨0, Nat.one_pos⟩) = ix1 e :=
  funext fun a => Fin.ext (by match a with | ⟨0, _⟩ => rfl)

theorem col30 (e : Fin 800000) :
    Read.val_main_v30 (F := Ideal) x7 (ix2 e ⟨0, Nat.one_pos⟩) = x7 (ix1 e) := by
  rw [Read.val_main_v30_apply, col_idx30]

/-- The table rows the nodes carry. -/
theorem v6_at (n : Fin 50000) (d : Fin 100) :
    Read.val_main_v6 (F := Ideal) x0 x5 (ix2 n d) = x0 (ix2 (Cert.Gcn.word x5 n) d) := by
  unfold Read.val_main_v6
  refine (GatherRows.gather_rows_apply (N := 800000) (C := 100) (n := 50000) (by decide) _ x0 (Read.val_main_v5 (F := Ideal) x5) n d).trans ?_
  refine congrArg x0 (congrArg (fun r => ix2 r d) (Fin.ext ?_))
  show min (Read.val_main_v5 (F := Ideal) x5 (ix2 n ⟨0, Nat.one_pos⟩)).toInt.toNat (800000 - 1) = _
  rw [col5]
  rfl

/-- The table rows of the edges' sources. -/
theorem v13_at (e : Fin 800000) (d : Fin 100) :
    Read.val_main_v13 (F := Ideal) x0 x5 x6 (ix2 e d) = x0 (ix2 (Cert.Gcn.word x5 (Cert.Gcn.node x6 e)) d) := by
  unfold Read.val_main_v13
  refine (GatherRows.gather_rows_apply (N := 50000) (C := 100) (n := 800000) (by decide) _ (Read.val_main_v6 (F := Ideal) x0 x5) (Read.val_main_v12 (F := Ideal) x6) e d).trans ?_
  refine Eq.trans (congrArg (Read.val_main_v6 (F := Ideal) x0 x5) (congrArg (fun r => ix2 r d) (Fin.ext ?_))) (v6_at x0 x5 (Cert.Gcn.node x6 e) d)
  show min (Read.val_main_v12 (F := Ideal) x6 (ix2 e ⟨0, Nat.one_pos⟩)).toInt.toNat (50000 - 1) = _
  rw [col12]
  rfl

theorem v14_at (i : S50000x100.Idx) : Read.val_main_v14 (F := Ideal) i = 0 := by
  rw [Read.val_main_v14_apply, Read.val_main_cst_apply]
  exact Ideal.ofBits_zero_f32

theorem scat16 (y0 : (⟨S50000x100, .f32⟩ : BufTy).Contents (Elt Ideal)) (yi : (⟨S800000x1, .i32⟩ : BufTy).Contents (Elt Ideal))
    (yu : (⟨S800000x100, .f32⟩ : BufTy).Contents (Elt Ideal)) (n : Fin 50000) (d : Fin 100) :
    Host.scatterAdd (F := Ideal) (φ := .f32) scatter_S50000x100_S800000x1_S800000x100_1_0_0_1 y0 yi yu (ix2 n d)
      = y0 (ix2 n d) + ∑ p : Fin 800000, if (yi (ix2 p ⟨0, Nat.one_pos⟩)).toInt = (n.val : Int) then yu (ix2 p d) else 0 :=
  ScatterAddRows.scatterAdd_rows_apply (N := 50000) (C := 100) (n := 800000) _ y0 yi yu n d

/-- Layer 1's aggregation. -/
theorem v16_at (n : Fin 50000) (d : Fin 100) :
    Read.val_main_v16 (F := Ideal) x0 x5 x6 x7 (ix2 n d) = Cert.Gcn.agg1 x0 x5 x6 x7 n d := by
  unfold Read.val_main_v16
  refine (scat16 (Read.val_main_v14 (F := Ideal)) (Read.val_main_v15 (F := Ideal) x7) (Read.val_main_v13 (F := Ideal) x0 x5 x6) n d).trans ?_
  rw [v14_at, zero_add]
  unfold Cert.Gcn.agg1
  refine Finset.sum_congr rfl fun e _ => ?_
  have h1 := col15 x7 e
  have h2 := v13_at x0 x5 x6 e d
  rw [h1, h2]

theorem lidx17_eq (n : Fin 50000) (k : Fin 200) (d : Fin 100) : Read.lidx_main_v17 (ix2 n k) d = ix2 n d :=
  funext fun a => Fin.ext (by match a with | ⟨0, _⟩ => rfl | ⟨1, _⟩ => rfl)

theorem ridx17_eq (n : Fin 50000) (k : Fin 200) (d : Fin 100) : Read.ridx_main_v17 (ix2 n k) d = ix2 d k :=
  funext fun a => Fin.ext (by match a with | ⟨0, _⟩ => rfl | ⟨1, _⟩ => rfl)

/-- Layer 1's matrix product. -/
theorem v17_at (n : Fin 50000) (k : Fin 200) :
    Read.val_main_v17 (F := Ideal) x0 x1 x5 x6 x7 (ix2 n k)
      = ∑ d : Fin 100, Cert.Gcn.agg1 x0 x5 x6 x7 n d * x1 (ix2 d k) := by
  refine (Read.val_main_v17_apply x0 x1 x5 x6 x7 (ix2 n k)).trans ?_
  refine Finset.sum_congr rfl fun d _ => ?_
  have h1 := lidx17_eq n k d
  have h2 := ridx17_eq n k d
  have h3 := v16_at x0 x5 x6 x7 n d
  rw [h1, h2, h3]

theorem idx18_19_eq (n : Fin 50000) (k : Fin 200) : Read.idx_main_v18 (Read.idx_main_v19 (ix2 n k)) = ix1 k :=
  funext fun a => Fin.ext (by match a with | ⟨0, _⟩ => rfl)

theorem v19_at (n : Fin 50000) (k : Fin 200) :
    Read.val_main_v19 (F := Ideal) x2 (ix2 n k) = x2 (ix1 k) := by
  have h := idx18_19_eq n k
  rw [Read.val_main_v19_apply, Read.val_main_v18_apply, h]

theorem call0_v0_at (i : S50000x200.Idx) : Read.val_main_call0_v0 (F := Ideal) i = 0 := by
  rw [Read.val_main_call0_v0_apply, Read.val_main_call0_cst_apply]
  exact Ideal.ofBits_zero_f32

/-- Layer 1's output. -/
theorem v21_at (n : Fin 50000) (k : Fin 200) :
    Read.val_main_v21 (F := Ideal) x0 x1 x2 x5 x6 x7 (ix2 n k) = Cert.Gcn.hid x0 x1 x2 x5 x6 x7 n k := by
  have h1 := v17_at x0 x1 x5 x6 x7 n k
  have h2 := v19_at x2 n k
  have h3 := call0_v0_at (ix2 n k)
  rw [Read.val_main_v21_apply, Read.val_main_v20_apply, h1, h2, h3]
  rfl

/-- Layer 1's output rows of the edges' sources. -/
theorem v28_at (e : Fin 800000) (k : Fin 200) :
    Read.val_main_v28 (F := Ideal) x0 x1 x2 x5 x6 x7 (ix2 e k)
      = Cert.Gcn.hid x0 x1 x2 x5 x6 x7 (Cert.Gcn.node x6 e) k := by
  unfold Read.val_main_v28
  refine (GatherRows.gather_rows_apply (N := 50000) (C := 200) (n := 800000) (by decide) _ (Read.val_main_v21 (F := Ideal) x0 x1 x2 x5 x6 x7) (Read.val_main_v27 (F := Ideal) x6) e k).trans ?_
  refine Eq.trans (congrArg (Read.val_main_v21 (F := Ideal) x0 x1 x2 x5 x6 x7) (congrArg (fun r => ix2 r k) (Fin.ext ?_))) (v21_at x0 x1 x2 x5 x6 x7 (Cert.Gcn.node x6 e) k)
  show min (Read.val_main_v27 (F := Ideal) x6 (ix2 e ⟨0, Nat.one_pos⟩)).toInt.toNat (50000 - 1) = _
  rw [col27]
  rfl

theorem v29_at (i : S50000x200.Idx) : Read.val_main_v29 (F := Ideal) i = 0 := by
  rw [Read.val_main_v29_apply, Read.val_main_cst_5_apply]
  exact Ideal.ofBits_zero_f32

theorem scat31 (y0 : (⟨S50000x200, .f32⟩ : BufTy).Contents (Elt Ideal)) (yi : (⟨S800000x1, .i32⟩ : BufTy).Contents (Elt Ideal))
    (yu : (⟨S800000x200, .f32⟩ : BufTy).Contents (Elt Ideal)) (n : Fin 50000) (k : Fin 200) :
    Host.scatterAdd (F := Ideal) (φ := .f32) scatter_S50000x200_S800000x1_S800000x200_1_0_0_1 y0 yi yu (ix2 n k)
      = y0 (ix2 n k) + ∑ p : Fin 800000, if (yi (ix2 p ⟨0, Nat.one_pos⟩)).toInt = (n.val : Int) then yu (ix2 p k) else 0 :=
  ScatterAddRows.scatterAdd_rows_apply (N := 50000) (C := 200) (n := 800000) _ y0 yi yu n k

/-- Layer 2's aggregation. -/
theorem v31_at (n : Fin 50000) (k : Fin 200) :
    Read.val_main_v31 (F := Ideal) x0 x1 x2 x5 x6 x7 (ix2 n k)
      = ∑ e : Fin 800000, if (x7 (ix1 e)).toInt = (n.val : Int)
          then Cert.Gcn.hid x0 x1 x2 x5 x6 x7 (Cert.Gcn.node x6 e) k else 0 := by
  unfold Read.val_main_v31
  refine (scat31 (Read.val_main_v29 (F := Ideal)) (Read.val_main_v30 (F := Ideal) x7) (Read.val_main_v28 (F := Ideal) x0 x1 x2 x5 x6 x7) n k).trans ?_
  rw [v29_at, zero_add]
  refine Finset.sum_congr rfl fun e _ => ?_
  have h1 := col30 x7 e
  have h2 := v28_at x0 x1 x2 x5 x6 x7 e k
  rw [h1, h2]

theorem lidx32_eq (n : Fin 50000) (j : Fin 100) (k : Fin 200) : Read.lidx_main_v32 (ix2 n j) k = ix2 n k :=
  funext fun a => Fin.ext (by match a with | ⟨0, _⟩ => rfl | ⟨1, _⟩ => rfl)

theorem ridx32_eq (n : Fin 50000) (j : Fin 100) (k : Fin 200) : Read.ridx_main_v32 (ix2 n j) k = ix2 k j :=
  funext fun a => Fin.ext (by match a with | ⟨0, _⟩ => rfl | ⟨1, _⟩ => rfl)

/-- Layer 2's matrix product. -/
theorem v32_at (n : Fin 50000) (j : Fin 100) :
    Read.val_main_v32 (F := Ideal) x0 x1 x2 x3 x5 x6 x7 (ix2 n j)
      = ∑ k : Fin 200, (∑ e : Fin 800000, if (x7 (ix1 e)).toInt = (n.val : Int)
          then Cert.Gcn.hid x0 x1 x2 x5 x6 x7 (Cert.Gcn.node x6 e) k else 0) * x3 (ix2 k j) := by
  refine (Read.val_main_v32_apply x0 x1 x2 x3 x5 x6 x7 (ix2 n j)).trans ?_
  refine Finset.sum_congr rfl fun k _ => ?_
  have h1 := lidx32_eq n j k
  have h2 := ridx32_eq n j k
  have h3 := v31_at x0 x1 x2 x5 x6 x7 n k
  rw [h1, h2, h3]

theorem idx33_34_eq (n : Fin 50000) (j : Fin 100) : Read.idx_main_v33 (Read.idx_main_v34 (ix2 n j)) = ix1 j :=
  funext fun a => Fin.ext (by match a with | ⟨0, _⟩ => rfl)

theorem v34_at (n : Fin 50000) (j : Fin 100) :
    Read.val_main_v34 (F := Ideal) x4 (ix2 n j) = x4 (ix1 j) := by
  have h := idx33_34_eq n j
  rw [Read.val_main_v34_apply, Read.val_main_v33_apply, h]

theorem call1_v0_at (i : S50000x100.Idx) : Read.val_main_call1_v0 (F := Ideal) i = 0 := by
  rw [Read.val_main_call1_v0_apply, Read.val_main_call1_cst_apply]
  exact Ideal.ofBits_zero_f32

/-- Layer 2's output. -/
theorem v36_at (n : Fin 50000) (j : Fin 100) :
    Read.val_main_v36 (F := Ideal) x0 x1 x2 x3 x4 x5 x6 x7 (ix2 n j) = Cert.Gcn.refOut x0 x1 x2 x3 x4 x5 x6 x7 n j := by
  have h1 := v32_at x0 x1 x2 x3 x5 x6 x7 n j
  have h2 := v34_at x4 n j
  have h3 := call1_v0_at (ix2 n j)
  rw [Read.val_main_v36_apply, Read.val_main_v35_apply, h1, h2, h3]
  rfl

/-- The reference's result array is the specification's, index by index. -/
theorem v36_eq :
    Read.val_main_v36 (F := Ideal) x0 x1 x2 x3 x4 x5 x6 x7 = Cert.Gcn.outArr (Cert.Gcn.refOut x0 x1 x2 x3 x4 x5 x6 x7) := by
  funext i
  obtain ⟨n, j, rfl⟩ : ∃ (n : Fin 50000) (j : Fin 100), i = ix2 n j := ⟨i 0, i 1, eq_ix2 i⟩
  exact v36_at x0 x1 x2 x3 x4 x5 x6 x7 n j

end Stages

/-- The reference's run with its result named: every weakly fair execution terminates with the result array at
    `refOut` of the argument arrays, the arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36)
        = Cert.Gcn.outArr (Cert.Gcn.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r h c => ⟨(h c).1.trans ?_, (h c).2⟩)
    (Cert.ReferenceIdeal.Value.run (F := Ideal) m ρ)
  rw [Read.val_main_v36_eq]
  exact v36_eq _ _ _ _ _ _ _ _

end Cert.ReferenceIdeal.RefValue

end
-- ==== Proof.LibRealValued.lean ====
/-
  Arrays of extended reals that hold only real numbers.

  At the ideal values a float is an extended real, and an algebraic identity between two ways of
  computing a softmax holds for REAL logits only (at an infinite logit a difference of infinities is a
  convention, not a number). This file names the property "every entry is a real number" and proves
  that each operation a graph-convolution network is made of keeps it: sums, differences, products and
  maxima of entries, constants, re-indexings (broadcasts, shape casts, transposes, gathers), scattered
  sums, contractions, integers read as floats, and the inverse square root of a node's degree.
-/
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost

namespace RealValued

open Idealize.ShloMosaic
open scoped BigOperators

/-! ## The property -/

/-- An array of extended reals every entry of which is a real number. -/
def IsReal {ι : Type*} (v : ι → EReal) : Prop := ∀ i, ∃ r : ℝ, v i = (r : EReal)

/-- An array is real-valued exactly when no entry is an infinity. -/
theorem isReal_iff_ne {ι : Type*} (v : ι → EReal) : IsReal v ↔ ∀ i, v i ≠ ⊤ ∧ v i ≠ ⊥ := by
  constructor
  · intro h i
    obtain ⟨r, hr⟩ := h i
    rw [hr]
    exact ⟨EReal.coe_ne_top r, EReal.coe_ne_bot r⟩
  · intro h i
    exact ⟨(v i).toReal, (EReal.coe_toReal (h i).1 (h i).2).symm⟩

/-- What a finiteness precondition gives: an array with no infinite entry is real-valued. -/
theorem isReal_of_finite {ι : Type*} {x : ι → EReal} (h : ∀ i, x i ≠ ⊤ ∧ x i ≠ ⊥) : IsReal x :=
  (isReal_iff_ne x).mpr h

/-- An entry of a real-valued array is not `⊤`. -/
theorem IsReal.ne_top {ι : Type*} {v : ι → EReal} (h : IsReal v) (i : ι) : v i ≠ ⊤ :=
  ((isReal_iff_ne v).mp h i).1

/-- An entry of a real-valued array is not `⊥`. -/
theorem IsReal.ne_bot {ι : Type*} {v : ι → EReal} (h : IsReal v) (i : ι) : v i ≠ ⊥ :=
  ((isReal_iff_ne v).mp h i).2

/-- An entry of a real-valued array is the embedding of its real part. -/
theorem IsReal.coe_toReal {ι : Type*} {v : ι → EReal} (h : IsReal v) (i : ι) : ((v i).toReal : EReal) = v i :=
  EReal.coe_toReal (h.ne_top i) (h.ne_bot i)

/-- An array whose absolute values `max a (-a)` all lie below `⊤` is real-valued: `|a| < ⊤` excludes both
    infinities, since `|⊤| = |⊥| = ⊤`. -/
theorem isReal_of_abs_lt_top {ι : Type*} {x : ι → EReal} (h : ∀ i, max (x i) (-(x i)) < ⊤) : IsReal x := by
  refine isReal_of_finite fun i => ⟨?_, ?_⟩
  · intro e; have := h i; rw [e] at this; simp at this
  · intro e; have := h i; rw [e] at this; simp at this

/-! ## Real numbers are closed under the field operations and the lattice operations -/

/-- The sum of two real numbers is a real number. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

/-- The difference of two real numbers is a real number. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

/-- The product of two real numbers is a real number. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

/-- The negation of a real number is a real number. -/
theorem real_neg {a : EReal} (ha : ∃ r : ℝ, a = (r : EReal)) : ∃ r : ℝ, -a = (r : EReal) := by
  obtain ⟨p, rfl⟩ := ha
  exact ⟨-p, (EReal.coe_neg p).symm⟩

/-- The greater of two real numbers is a real number. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The lesser of two real numbers is a real number. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- A finite sum of real numbers is a real number (induction on the index set: the empty sum is `0`, and a
    sum of two reals is real). -/
theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h

/-- The same over a whole finite type. -/
theorem isReal_sum_univ {κ : Type*} [Fintype κ] (f : κ → EReal) (h : ∀ k, ∃ r : ℝ, f k = (r : EReal)) :
    ∃ r : ℝ, ∑ k, f k = (r : EReal) :=
  isReal_sum Finset.univ f fun k _ => h k

/-! ## The elementwise operations -/

section Elementwise
variable {s : Shape} {φ : FTy}

/-- The elementwise sum of two real-valued arrays is real-valued. -/
theorem isReal_addf {x y : FVec Ideal s φ} (hx : IsReal x) (hy : IsReal y) : IsReal (addf (F := Ideal) x y) :=
  fun i => real_add (hx i) (hy i)

/-- The elementwise difference of two real-valued arrays is real-valued. -/
theorem isReal_subf {x y : FVec Ideal s φ} (hx : IsReal x) (hy : IsReal y) : IsReal (subf (F := Ideal) x y) :=
  fun i => real_sub (hx i) (hy i)

/-- The elementwise product of two real-valued arrays is real-valued. -/
theorem isReal_mulf {x y : FVec Ideal s φ} (hx : IsReal x) (hy : IsReal y) : IsReal (mulf (F := Ideal) x y) :=
  fun i => real_mul (hx i) (hy i)

/-- The elementwise maximum of two real-valued arrays is real-valued. -/
theorem isReal_maximumf {x y : FVec Ideal s φ} (hx : IsReal x) (hy : IsReal y) :
    IsReal (maximumf (F := Ideal) x y) :=
  fun i => real_max (hx i) (hy i)

/-- The elementwise minimum of two real-valued arrays is real-valued. -/
theorem isReal_minimumf {x y : FVec Ideal s φ} (hx : IsReal x) (hy : IsReal y) :
    IsReal (minimumf (F := Ideal) x y) :=
  fun i => real_min (hx i) (hy i)

/-- The elementwise negation of a real-valued array is real-valued. -/
theorem isReal_negf {x : FVec Ideal s φ} (hx : IsReal x) : IsReal (negf (F := Ideal) x) :=
  fun i => real_neg (hx i)

/-- The host's elementwise negation of a real-valued array is real-valued. -/
theorem isReal_hostNegf {x : FVec Ideal s φ} (hx : IsReal x) : IsReal (Host.negf (F := Ideal) x) :=
  fun i => real_neg (hx i)

end Elementwise

/-! ## Constants -/

section Constants
variable {s : Shape} {φ : FTy}

/-- A constant array whose bit pattern denotes a real number is real-valued. -/
theorem isReal_const_of {w : BitVec φ.bits} {r : ℝ} (h : Ideal.ofBits φ w = (r : EReal)) :
    IsReal (constant (F := Ideal) s φ w) :=
  fun _ => ⟨r, h⟩

/-- The f32 pattern of `4096.0` (sign 0, exponent 139, fraction 0: `2 ^ 12`) denotes the real `4096`. -/
theorem ofBits_4096_f32 : Ideal.ofBits .f32 0x45800000#32 = ((4096 : ℝ) : EReal) := by
  simp [Ideal.ofBits, Ideal.ieee, -EReal.coe_mul]; norm_num

/-- The f32 pattern `0x358637BD` (the float nearest `1e-6`: sign 0, exponent 107, fraction `0x0637BD`)
    denotes the real `(2 ^ 23 + 407485) · 2 ^ (-43)`. -/
theorem ofBits_1em6_f32 :
    Ideal.ofBits .f32 0x358637BD#32 = (((8796093 : ℝ) * (2 : ℝ) ^ (-43 : ℤ) : ℝ) : EReal) := by
  simp [Ideal.ofBits, Ideal.ieee, -EReal.coe_mul]

/-- The constant `0.0` array is real-valued. -/
theorem isReal_const_zero : IsReal (constant (F := Ideal) s .f32 0x00000000#32) :=
  isReal_const_of (r := 0) Ideal.ofBits_zero_f32

/-- The constant `1.0` array is real-valued. -/
theorem isReal_const_one : IsReal (constant (F := Ideal) s .f32 0x3F800000#32) :=
  isReal_const_of (r := 1) Ideal.ofBits_one_f32

/-- The constant `4096.0` array is real-valued. -/
theorem isReal_const_4096 : IsReal (constant (F := Ideal) s .f32 0x45800000#32) :=
  isReal_const_of ofBits_4096_f32

/-- The constant array of the float nearest `1e-6` is real-valued. -/
theorem isReal_const_1em6 : IsReal (constant (F := Ideal) s .f32 0x358637BD#32) :=
  isReal_const_of ofBits_1em6_f32

/-- Every entry of the constant `1.0` array is `1`. -/
theorem const_one_apply (i : s.Idx) : constant (F := Ideal) s .f32 0x3F800000#32 i = 1 :=
  Ideal.ofBits_one_f32

/-- Every entry of the constant `0.0` array is `0`. -/
theorem const_zero_apply (i : s.Idx) : constant (F := Ideal) s .f32 0x00000000#32 i = 0 :=
  Ideal.ofBits_zero_f32

end Constants

/-! ## Re-indexings: every entry of the result is an entry of the operand -/

section Reindex
variable {s t : Shape}

/-- An array read through any map of indices is real-valued when the array is. -/
theorem isReal_comp {ι κ : Type*} {x : ι → EReal} (hx : IsReal x) (f : κ → ι) : IsReal fun j => x (f j) :=
  fun j => hx (f j)

/-- A broadcast along dimensions of a real-valued array is real-valued. -/
theorem isReal_broadcastInDim {dims : Fin s.rank → Fin t.rank} {h : s.BroadcastsInDim t dims} {x : s.Idx → EReal}
    (hx : IsReal x) : IsReal (broadcastInDim t dims h x) :=
  fun _ => hx _

/-- The splat of a real number is real-valued. -/
theorem isReal_broadcast {a : EReal} (ha : ∃ r : ℝ, a = (r : EReal)) : IsReal (broadcast t a) :=
  fun _ => ha

/-- A trailing-axes broadcast of a real-valued array is real-valued. -/
theorem isReal_broadcastTo {h : s.Broadcasts t} {x : s.Idx → EReal} (hx : IsReal x) : IsReal (broadcastTo t x h) :=
  fun _ => hx _

/-- A shape cast (a reshape: the same entries in row-major order) of a real-valued array is real-valued. -/
theorem isReal_shapeCast {h : s.ShapeCasts t} {x : s.Idx → EReal} (hx : IsReal x) : IsReal (shapeCast t x h) :=
  fun _ => hx _

/-- A transpose of a real-valued array is real-valued. -/
theorem isReal_transpose {perm : List (Fin s.rank)} {h : s.Transposes perm t} {x : s.Idx → EReal} (hx : IsReal x) :
    IsReal (transpose t perm x h) :=
  fun _ => hx _

/-- A gather from a real-valued array is real-valued: each result entry is the operand's at an index. -/
theorem isReal_gather {si : Shape} {w : Nat} (d : GatherDims s si t) {x : s.Idx → EReal} (idx : IVec si w)
    (hx : IsReal x) : IsReal (Host.gather d x idx) :=
  fun _ => hx _

end Reindex

/-! ## Scattered sums, contractions, integers -/

section Sums
variable {s : Shape} {φ : FTy}

/-- An accumulating scatter of real-valued updates into a real-valued operand is real-valued: each entry is the
    operand's plus a finite sum of update entries. -/
theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)

/-- A contraction (`dot_general`) of two real-valued arrays is real-valued: each entry is a finite sum of products. -/
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := by
  intro j
  show ∃ r : ℝ, FloatOps.dotGeneral d prec .single x w j = (r : EReal)
  rw [Ideal.dotGeneral_apply]
  exact isReal_sum_univ _ fun k => real_mul (hx _) (hw _)

/-- The same at any schedule key. -/
theorem isReal_dotGeneralAt (sched : HostSchedule) {sl sr so : Shape} {φ₁ φ₂ : FTy} (d : DotDims sl sr so)
    (prec : Option ContractPrecision) {x : FVec Ideal sl φ₁} {w : FVec Ideal sr φ₂} (hx : IsReal x) (hw : IsReal w) :
    IsReal (Host.dotGeneralAt (F := Ideal) sched d prec x w) := by
  intro j
  show ∃ r : ℝ, FloatOps.dotGeneral d prec sched x w j = (r : EReal)
  rw [Ideal.dotGeneral_apply]
  exact isReal_sum_univ _ fun k => real_mul (hx _) (hw _)

/-- A kernel's matrix product of real-valued operands onto a real-valued accumulator is real-valued: each entry is
    the accumulator's plus a finite sum of products. -/
theorem isReal_matmul {sl sr so : Shape} {φ₁ φ₂ : FTy} (d : DotDims sl sr so) (prec : Option ContractPrecision)
    {x : FVec Ideal sl φ₁} {w : FVec Ideal sr φ₂} {acc : FVec Ideal so .f32} (hx : IsReal x) (hw : IsReal w)
    (hacc : IsReal acc) : IsReal (matmul (F := Ideal) d prec x w acc) := by
  intro j
  show ∃ r : ℝ, FloatOps.matmul d prec x w acc j = (r : EReal)
  rw [Ideal.matmul_apply]
  exact real_add (hacc j) (isReal_sum_univ _ fun k => real_mul (hx _) (hw _))

/-- A signed integer array read as floats is real-valued: each entry is the integer's value. -/
theorem isReal_sitofp {w : Nat} (v : IVec s w) : IsReal (sitofp (F := Ideal) φ v) :=
  fun i => ⟨((v i).toInt : ℝ), rfl⟩

/-- An unsigned integer array read as floats is real-valued. -/
theorem isReal_uitofp {w : Nat} (v : IVec s w) : IsReal (uitofp (F := Ideal) φ v) :=
  fun i => ⟨((v i).toNat : ℝ), rfl⟩

end Sums

/-! ## Positive arrays, and the inverse square root of a degree -/

section Degree
variable {s : Shape} {φ : FTy}

/-- An array every entry of which is a positive real number. -/
def IsPos {ι : Type*} (v : ι → EReal) : Prop := ∀ i, ∃ r : ℝ, 0 < r ∧ v i = (r : EReal)

/-- A positive array is real-valued. -/
theorem IsPos.isReal {ι : Type*} {v : ι → EReal} (h : IsPos v) : IsReal v :=
  fun i => let ⟨r, _, hr⟩ := h i; ⟨r, hr⟩

/-- The inverse square root of a positive real number `r` is the positive real number `(√r)⁻¹`. -/
theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']

/-- The host's elementwise inverse square root of a positive array is positive. -/
theorem isPos_rsqrt {x : FVec Ideal s φ} (hx : IsPos x) : IsPos (Host.rsqrt (F := Ideal) x) :=
  fun i => rsqrt_of_pos (hx i)

/-- The host's elementwise inverse square root of a positive array is real-valued. -/
theorem isReal_rsqrt_of_pos {x : FVec Ideal s φ} (hx : IsPos x) : IsReal (Host.rsqrt (F := Ideal) x) :=
  (isPos_rsqrt hx).isReal

/-- The kernel-side elementwise inverse square root of a positive array is positive. -/
theorem isPos_rsqrt' {x : FVec Ideal s φ} (hx : IsPos x) : IsPos (rsqrt (F := Ideal) x) :=
  fun i => rsqrt_of_pos (hx i)

/-- The product of two positive arrays is positive. -/
theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]

/-- A gather from a positive array is positive. -/
theorem isPos_gather {t si : Shape} {w : Nat} (d : GatherDims s si t) {x : s.Idx → EReal} (idx : IVec si w)
    (hx : IsPos x) : IsPos (Host.gather d x idx) :=
  fun _ => hx _

/-- A broadcast along dimensions of a positive array is positive. -/
theorem isPos_broadcastInDim {t : Shape} {dims : Fin s.rank → Fin t.rank} {h : s.BroadcastsInDim t dims}
    {x : s.Idx → EReal} (hx : IsPos x) : IsPos (broadcastInDim t dims h x) :=
  fun _ => hx _

/-- A degree count: scattering ones onto an array of ones leaves at each entry `1 + n`, `n` the number of updates
    that land there. -/
theorem scatterAdd_ones_apply {si su : Shape} (d : ScatterDims s si su) {w : Nat} (idx : IVec si w)
    (one : FVec Ideal s φ) (ones : FVec Ideal su φ) (h1 : ∀ i, one i = 1) (h2 : ∀ j, ones j = 1) (i : s.Idx) :
    Host.scatterAdd (F := Ideal) d one idx ones i
      = ((1 + ((Finset.univ.filter fun j => d.resultIdx? j idx = some i).card : ℝ) : ℝ) : EReal) := by
  show one i + ∑ j ∈ Finset.univ.filter (fun j => d.resultIdx? j idx = some i), ones j = _
  rw [h1 i, Finset.sum_congr rfl (fun j _ => h2 j), Finset.sum_const, nsmul_one, EReal.coe_add, EReal.coe_one,
    EReal.coe_natCast]

/-- A degree count is positive: each entry is a real number at least `1`. -/
theorem isPos_scatterAdd_ones {si su : Shape} (d : ScatterDims s si su) {w : Nat} (idx : IVec si w)
    (one : FVec Ideal s φ) (ones : FVec Ideal su φ) (h1 : ∀ i, one i = 1) (h2 : ∀ j, ones j = 1) :
    IsPos (Host.scatterAdd (F := Ideal) d one idx ones) := fun i =>
  ⟨_, by positivity, scatterAdd_ones_apply d idx one ones h1 h2 i⟩

/-- The inverse square root of a degree count is positive: each entry is `(√(1 + n))⁻¹`. -/
theorem isPos_rsqrt_degree {si su : Shape} (d : ScatterDims s si su) {w : Nat} (idx : IVec si w)
    (one : FVec Ideal s φ) (ones : FVec Ideal su φ) (h1 : ∀ i, one i = 1) (h2 : ∀ j, ones j = 1) :
    IsPos (Host.rsqrt (F := Ideal) (Host.scatterAdd d one idx ones)) :=
  isPos_rsqrt (isPos_scatterAdd_ones d idx one ones h1 h2)

/-- The inverse square root of a degree count is real-valued. -/
theorem isReal_rsqrt_degree {si su : Shape} (d : ScatterDims s si su) {w : Nat} (idx : IVec si w)
    (one : FVec Ideal s φ) (ones : FVec Ideal su φ) (h1 : ∀ i, one i = 1) (h2 : ∀ j, ones j = 1) :
    IsReal (Host.rsqrt (F := Ideal) (Host.scatterAdd d one idx ones)) :=
  (isPos_rsqrt_degree d idx one ones h1 h2).isReal

/-- A degree count with the ones spelled as broadcasts of the constant `1.0` is positive. -/
theorem isPos_scatterAdd_ones_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.scatterAdd (F := Ideal) d (broadcastInDim s dims₀ hb₀ (constant S₀ .f32 0x3F800000#32)) idx
      (broadcastInDim su dims₁ hb₁ (constant S₁ .f32 0x3F800000#32))) :=
  isPos_scatterAdd_ones d idx _ _ (fun _ => Ideal.ofBits_one_f32) (fun _ => Ideal.ofBits_one_f32)

/-- The inverse square root of a degree count so spelled is positive. -/
theorem isPos_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.rsqrt (F := Ideal) (Host.scatterAdd d (broadcastInDim s dims₀ hb₀ (constant S₀ .f32 0x3F800000#32)) idx
      (broadcastInDim su dims₁ hb₁ (constant S₁ .f32 0x3F800000#32)))) :=
  isPos_rsqrt_degree d idx _ _ (fun _ => Ideal.ofBits_one_f32) (fun _ => Ideal.ofBits_one_f32)

/-- … and real-valued. -/
theorem isReal_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsReal (Host.rsqrt (F := Ideal) (Host.scatterAdd d (broadcastInDim s dims₀ hb₀ (constant S₀ .f32 0x3F800000#32)) idx
      (broadcastInDim su dims₁ hb₁ (constant S₁ .f32 0x3F800000#32)))) :=
  (isPos_rsqrt_degree_bcast d idx hb₀ hb₁).isReal

end Degree

/-! ## More host operations on real-valued arrays -/

section More
variable {s : Shape} {φ : FTy}

/-- A real-valued array minus itself is zero everywhere (for an infinite entry the difference is not zero). -/
theorem subf_self {x : FVec Ideal s φ} (hx : IsReal x) : subf (F := Ideal) x x = fun _ => 0 := by
  funext i
  obtain ⟨r, hr⟩ := hx i
  show x i - x i = 0
  rw [hr, ← EReal.coe_sub, sub_self, EReal.coe_zero]

/-- The host's sum over axes of a real-valued array, from a real initial value, is real-valued: each entry is the
    initial value plus a finite sum of entries. -/
theorem isReal_hostReduceAdd {t u : Shape} {axes : List (Fin s.rank)} {x : FVec Ideal s φ} {init : u.Idx → Ideal φ}
    (h : s.ReducesTo axes t) (hu : 0 < u.numel) (hx : IsReal x) (hinit : IsReal init) :
    IsReal (Host.reduceAdd (F := Ideal) x init h hu) :=
  fun _ => real_add (hinit _) (isReal_sum _ _ fun i _ => hx i)

/-- The host's quotient of a real-valued array by an array of real numbers that are not zero is real-valued. -/
theorem isReal_hostDivf {x y : FVec Ideal s φ} (hx : IsReal x) (hy : ∀ i, ∃ r : ℝ, r ≠ 0 ∧ y i = (r : EReal)) :
    IsReal (Host.divf (F := Ideal) x y) := by
  intro i
  obtain ⟨q, hq, hqy⟩ := hy i
  show ∃ r : ℝ, Ideal.div (x i) (y i) = (r : EReal)
  rw [hqy, Ideal.div_coe hq]
  exact real_mul (hx i) ⟨_, rfl⟩

/-- The host's exponential of a real-valued array is positive. -/
theorem isPos_hostExp {x : FVec Ideal s φ} (hx : IsReal x) : IsPos (Host.exp (F := Ideal) x) := by
  intro i
  obtain ⟨r, hr⟩ := hx i
  refine ⟨Real.exp r, Real.exp_pos r, ?_⟩
  show Ideal.exp (x i) = _
  rw [hr, Ideal.exp_coe]

/-- The host's exponential of a real-valued array is real-valued. -/
theorem isReal_hostExp {x : FVec Ideal s φ} (hx : IsReal x) : IsReal (Host.exp (F := Ideal) x) :=
  (isPos_hostExp hx).isReal

/-- The host's logarithm of a positive array is real-valued. -/
theorem isReal_hostLog {x : FVec Ideal s φ} (hx : IsPos x) : IsReal (Host.log (F := Ideal) x) := by
  intro i
  obtain ⟨r, hr, hrx⟩ := hx i
  refine ⟨Real.log r, ?_⟩
  show Ideal.log (x i) = _
  rw [hrx, Ideal.log_coe, if_neg (not_le.mpr hr)]

/-- The host's square root of an array of real numbers that are not negative is real-valued. -/
theorem isReal_hostSqrt {x : FVec Ideal s φ} (hx : ∀ i, ∃ r : ℝ, 0 ≤ r ∧ x i = (r : EReal)) :
    IsReal (Host.sqrt (F := Ideal) x) := by
  intro i
  obtain ⟨r, hr, hrx⟩ := hx i
  refine ⟨Real.sqrt r, ?_⟩
  show Ideal.sqrt (x i) = _
  rw [hrx, Ideal.sqrt_coe, if_neg (not_lt.mpr hr)]

end More

/-! ## A tactic for nested terms -/

/-- `real_valued` proves a goal `IsReal t` for a term `t` built from real-valued hypotheses by the operations above:
    it applies the closure lemma of the outermost operation, then works on the operands, and closes a leaf by a
    hypothesis or by a lemma about a constant or an integer array. A goal it cannot progress on is left to the caller. -/
syntax (name := realValuedTac) "real_valued" : tactic

macro_rules
  | `(tactic| real_valued) => `(tactic|
      repeat' (with_reducible first
        | assumption
        | exact isReal_const_zero
        | exact isReal_const_one
        | exact isReal_const_4096
        | exact isReal_const_1em6
        | exact isReal_sitofp _
        | exact isReal_uitofp _
        | exact isReal_rsqrt_degree_bcast _ _ _ _
        | exact IsPos.isReal (by assumption)
        | exact isPos_scatterAdd_ones_bcast _ _ _ _
        | apply isReal_addf
        | apply isReal_subf
        | apply isReal_mulf
        | apply isReal_maximumf
        | apply isReal_minimumf
        | apply isReal_negf
        | apply isReal_hostNegf
        | apply isReal_broadcastInDim
        | apply isReal_shapeCast
        | apply isReal_transpose
        | apply isReal_gather
        | apply isReal_scatterAdd
        | apply isReal_dotGeneral
        | apply isReal_matmul
        | apply isReal_hostReduceAdd
        | apply isReal_hostExp
        | apply isReal_rsqrt_of_pos
        | apply isPos_rsqrt
        | apply isPos_mulf
        | apply isPos_gather
        | apply isPos_broadcastInDim
        | apply isPos_hostExp))

/-! ## Usage -/

section Usage

/-- Small shapes standing for nodes, edges and features: `N` nodes, `E` edges, `D` features. -/
private abbrev S0 : Shape := ⟨0, ![]⟩
private abbrev SN : Shape := ⟨1, ![5]⟩
private abbrev SN1 : Shape := ⟨2, ![5, 1]⟩
private abbrev SND : Shape := ⟨2, ![5, 3]⟩
private abbrev SE : Shape := ⟨1, ![7]⟩
private abbrev SE1 : Shape := ⟨2, ![7, 1]⟩
private abbrev SED : Shape := ⟨2, ![7, 3]⟩
private abbrev SD : Shape := ⟨1, ![3]⟩
private abbrev S1D : Shape := ⟨2, ![1, 3]⟩
private abbrev SKD : Shape := ⟨2, ![4, 3]⟩
private abbrev SNK : Shape := ⟨2, ![5, 4]⟩

/-- One graph-convolution aggregation, term by term: a scattered sum of weighted gathered rows onto zeros, plus the
    weighted self term. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) :=
  isReal_addf
    (isReal_scatterAdd d idx (isReal_broadcastInDim isReal_const_zero)
      (isReal_mulf (isReal_broadcastInDim ha) (isReal_gather g idx' hx)))
    (isReal_mulf (isReal_broadcastInDim hc) hx)

/-- The same by the tactic. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) := by
  real_valued

/-- The normalisation weights of an edge: the product of the two endpoints' inverse-square-root degrees, the degree
    a scattered count of ones onto ones, the operations applied through `fun`s as a host program writes them. -/
example (d : ScatterDims SN SE1 SE) (g : GatherDims SN SE1 SE) (idx i₁ i₂ : IVec SE1 32)
    (hb0 : S0.BroadcastsInDim SN ![]) (hb1 : S0.BroadcastsInDim SE ![]) :
    IsReal (mulf (F := Ideal)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₁)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₂)) := by
  real_valued

/-- A dense layer with a bias and a relu: a contraction of real-valued arrays, plus a broadcast bias, against zero. -/
example (dd : DotDims SNK SKD SND) (x : FVec Ideal SNK .f32) (w : FVec Ideal SKD .f32) (b : FVec Ideal SD .f32)
    (hb0 : S0.BroadcastsInDim SND ![]) (hb1 : SD.BroadcastsInDim S1D ![1]) (hb2 : S1D.BroadcastsInDim SND ![0, 1])
    (hx : IsReal x) (hw : IsReal w) (hbias : IsReal b) :
    IsReal (maximumf (F := Ideal)
      (addf ((fun l r => Host.dotGeneral dd none l r) x w) (broadcastInDim SND ![0, 1] hb2 (broadcastInDim S1D ![1] hb1 b)))
      (broadcastInDim SND ![] hb0 (constant S0 .f32 0x00000000#32))) := by
  real_valued

/-- Labels read as floats, negated. -/
example (v : IVec SN 32) : IsReal (Host.negf (F := Ideal) (sitofp .f32 v)) := by
  real_valued

/-- A leaf the tactic does not know is left as a goal: here an input known finite by a precondition. -/
example (x y : FVec Ideal SN .f32) (hx : IsReal x) (hy : ∀ i, y i ≠ ⊤ ∧ y i ≠ ⊥) :
    IsReal (addf (F := Ideal) x (mulf y x)) := by
  real_valued
  exact isReal_of_finite hy

/-- A host program's term as such a program is written: generic in the float values, each operation applied at its
    buffers' contents types. -/
private def edgeWeights {F : FTy → Type} [FloatOps F] (d : ScatterDims SN SE1 SE) (g : GatherDims SN SE1 SE)
    (idx i₁ : IVec SE1 32) (hb0 : S0.BroadcastsInDim SN ![]) (hb1 : S0.BroadcastsInDim SE ![])
    (hbe : SE.BroadcastsInDim SE1 ![0]) (x : FVec F SE1 .f32) : FVec F SE1 .f32 :=
  (mulf : (⟨SE1, .f32⟩ : BufTy).Contents (Elt F) → (⟨SE1, .f32⟩ : BufTy).Contents (Elt F)
      → (⟨SE1, .f32⟩ : BufTy).Contents (Elt F))
    ((broadcastInDim SE1 ![0] hbe : (⟨SE, .f32⟩ : BufTy).Contents (Elt F) → (⟨SE1, .f32⟩ : BufTy).Contents (Elt F))
      (((fun x i => Host.gather g x i) : (⟨SN, .f32⟩ : BufTy).Contents (Elt F) → (⟨SE1, .i32⟩ : BufTy).Contents (Elt F)
          → (⟨SE, .f32⟩ : BufTy).Contents (Elt F))
        ((Host.rsqrt : (⟨SN, .f32⟩ : BufTy).Contents (Elt F) → (⟨SN, .f32⟩ : BufTy).Contents (Elt F))
          (((fun x i u => Host.scatterAdd d x i u) : (⟨SN, .f32⟩ : BufTy).Contents (Elt F)
              → (⟨SE1, .i32⟩ : BufTy).Contents (Elt F) → (⟨SE, .f32⟩ : BufTy).Contents (Elt F)
              → (⟨SN, .f32⟩ : BufTy).Contents (Elt F))
            ((broadcastInDim SN ![] hb0 : (⟨S0, .f32⟩ : BufTy).Contents (Elt F) → (⟨SN, .f32⟩ : BufTy).Contents (Elt F))
              (constant S0 .f32 0x3F800000#32))
            idx
            ((broadcastInDim SE ![] hb1 : (⟨S0, .f32⟩ : BufTy).Contents (Elt F) → (⟨SE, .f32⟩ : BufTy).Contents (Elt F))
              (constant S0 .f32 0x3F800000#32))))
        i₁))
    x

/-- Read at the ideal values, that term is real-valued when its input is. -/
example (d : ScatterDims SN SE1 SE) (g : GatherDims SN SE1 SE) (idx i₁ : IVec SE1 32) (hb0 : S0.BroadcastsInDim SN ![])
    (hb1 : S0.BroadcastsInDim SE ![]) (hbe : SE.BroadcastsInDim SE1 ![0]) (x : FVec Ideal SE1 .f32) (hx : IsReal x) :
    IsReal (edgeWeights (F := Ideal) d g idx i₁ hb0 hb1 hbe x) := by
  unfold edgeWeights
  real_valued

end Usage

end RealValued
-- ==== Proof.PreFacts.lean ====
import proofs.«413761_j19774029431051_2_alg».proof.Pre_finite_inputs
import proofs.«413761_j19774029431051_2_alg».proof.Proof.Gen.Pre_finite_inputs
import proofs.«413761_j19774029431051_2_alg».proof.Proof.LibRealValued
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx RealValued
open Cert.Pre_finite_inputs

/-- The rank-0 shape has one index. -/
instance subsingleton_S_ : Subsingleton S_.Idx := ⟨fun _ _ => funext fun d => d.elim0⟩

/-- The f32 pattern 0x7F800000 denotes +∞. -/
theorem ofBits_inf : Ideal.ofBits .f32 0x7F800000#32 = (⊤ : EReal) := by
  simp [Ideal.ofBits, Ideal.ieee]

/-- One float test read back: when the conjunction over all entries of `|x| < +∞` is 1, every entry of `x` is a
    real number (`|⊤| = |⊥| = ⊤` is not below `⊤`). -/
theorem isReal_of_all {s : Shape} {axes : List (Fin s.rank)} (hb : S_.BroadcastsInDim s (![] : Fin 0 → Fin s.rank))
    (hr : s.ReducesTo axes S_) (h0 : 0 < S_.numel) (x : FVec Ideal s .f32) (init : IVec S_ 1)
    (e : Host.reduce IntOp.andi
          (cmpf .olt (Host.absf x) (broadcastInDim s ![] hb (constant (F := Ideal) S_ .f32 0x7F800000#32))) init hr h0 ix0
        = 1#1) : IsReal x := by
  refine isReal_of_abs_lt_top fun i => ?_
  have hi := Host.reduce_andi_all _ _ hr h0 ix0 e i
  have hc : Ideal.cmp .olt (max (x i) (-(x i))) (Ideal.ofBits .f32 0x7F800000#32) = 1#1 := hi
  rw [ofBits_inf] at hc
  unfold Ideal.cmp at hc
  rw [StableHlo.Predicate.ofBool_eq_one_iff] at hc
  exact of_decide_eq_true hc

/-- One integer test read back: when the conjunction over all entries of `0 ≤ a ∧ a < n` (signed) is 1, every entry
    of `a` lies in `[0, n)` as a signed integer. -/
theorem range_of_all {N : Nat} (lo hi : BitVec 32)
    (hb : S_.BroadcastsInDim (⟨1, ![N]⟩ : Shape) (![] : Fin 0 → Fin 1))
    (hr : (⟨1, ![N]⟩ : Shape).ReducesTo [0] S_) (h0 : 0 < S_.numel) (a : IVec ⟨1, ![N]⟩ 32) (init : IVec S_ 1)
    (e : Host.reduce IntOp.andi
          (andi (cmpi .sge a (broadcastInDim ⟨1, ![N]⟩ ![] hb (constantI S_ 32 lo)))
            (cmpi .slt a (broadcastInDim ⟨1, ![N]⟩ ![] hb (constantI S_ 32 hi)))) init hr h0 ix0 = 1#1)
    (n : Fin N) : lo.toInt ≤ (a (ix1 n)).toInt ∧ (a (ix1 n)).toInt < hi.toInt := by
  have hi' := Host.reduce_andi_all _ _ hr h0 ix0 e (ix1 n)
  have hc : IntOp.andi (IntOp.cmpi .sge (a (ix1 n)) lo) (IntOp.cmpi .slt (a (ix1 n)) hi) = 1#1 := hi'
  rw [IntOp.andi_eq_one, IntOp.cmpi_sge, IntOp.cmpi_slt] at hc
  exact hc

theorem of_pre (a0 : FVec Ideal S800000x100 .f32) (a1 : FVec Ideal S100x200 .f32) (a2 : FVec Ideal S200 .f32)
    (a3 : FVec Ideal S200x100 .f32) (a4 : FVec Ideal S100 .f32) (a5 : IVec S50000 32) (a6 a7 : IVec S800000 32)
    (h : Cert.Pre_finite_inputs.fn (F := Ideal) a0 a1 a2 a3 a4 a5 a6 a7 = fun _ => 1#1) :
    IsReal a0 ∧ IsReal a1 ∧ IsReal a2 ∧ IsReal a3 ∧ IsReal a4
      ∧ (∀ n : Fin 50000, 0 ≤ (a5 (ix1 n)).toInt ∧ (a5 (ix1 n)).toInt < 800000)
      ∧ (∀ e : Fin 800000, 0 ≤ (a6 (ix1 e)).toInt ∧ (a6 (ix1 e)).toInt < 50000) := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨h0, h1⟩, h2⟩, h3⟩, h4⟩, h5⟩, h6⟩ := e
  refine ⟨isReal_of_all _ _ _ a0 _ h0, isReal_of_all _ _ _ a1 _ h1, isReal_of_all _ _ _ a2 _ h2,
    isReal_of_all _ _ _ a3 _ h3, isReal_of_all _ _ _ a4 _ h4, fun n => ?_, fun n => ?_⟩
  · exact range_of_all 0#32 800000#32 _ _ _ a5 _ h5 n
  · exact range_of_all 0#32 50000#32 _ _ _ a6 _ h6 n

end Cert.PreFacts

end
-- ==== Proof.SpecLaw.lean ====
import proofs.«413761_j19774029431051_2_alg».proof.Proof.Spec
import proofs.«413761_j19774029431051_2_alg».proof.Proof.LibRealValued

noncomputable section

namespace Cert.Gcn

open Idealize.ShloMosaic Idealize.ShloMosaic.ValueIdx RealValued
open scoped BigOperators

/-- The embedding of a finite sum of reals is the sum of the embeddings (induction on the index set). -/
theorem coe_sum_real {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- Over reals, a selected sum of rows applied to a column is the selected sum of the rows' products with the column:
    `∑ e, [c e] ∑ k, h e k · w k = ∑ k, (∑ e, [c e] h e k) · w k`.  Both sides are embeddings of real sums; in the reals
    the product distributes over the sum and the two finite sums swap. -/
theorem sum_ite_mul_real {ι κ : Type*} [Fintype ι] [Fintype κ] (c : ι → Prop) [DecidablePred c] (h : ι → κ → ℝ)
    (w : κ → ℝ) :
    (∑ e, if c e then ∑ k, (h e k : EReal) * (w k : EReal) else 0)
      = ∑ k, (∑ e, if c e then (h e k : EReal) else 0) * (w k : EReal) := by
  have l : ∀ e, (if c e then ∑ k, (h e k : EReal) * (w k : EReal) else 0)
      = ((if c e then ∑ k, h e k * w k else 0 : ℝ) : EReal) := by
    intro e
    split_ifs
    · rw [coe_sum_real]; simp only [EReal.coe_mul]
    · rfl
  have r : ∀ k, (∑ e, if c e then (h e k : EReal) else 0) * (w k : EReal)
      = ((∑ e, (if c e then h e k * w k else 0) : ℝ) : EReal) := by
    intro k
    have t : ∀ e, (if c e then (h e k : EReal) else 0) = ((if c e then h e k else 0 : ℝ) : EReal) := by
      intro e; split_ifs <;> rfl
    simp only [t]
    rw [← coe_sum_real, ← EReal.coe_mul, Finset.sum_mul]
    simp only [ite_mul, zero_mul]
  simp only [l, r]
  rw [← coe_sum_real, ← coe_sum_real]
  congr 1
  rw [Finset.sum_comm]
  refine Finset.sum_congr rfl fun e _ => ?_
  split_ifs
  · rfl
  · simp

variable (emb : (⟨2, ![800000, 100]⟩ : Shape).Idx → EReal) (W1 : (⟨2, ![100, 200]⟩ : Shape).Idx → EReal)
  (b1 : (⟨1, ![200]⟩ : Shape).Idx → EReal) (W2 : (⟨2, ![200, 100]⟩ : Shape).Idx → EReal)
  (b2 : (⟨1, ![100]⟩ : Shape).Idx → EReal) (cid : IVec ⟨1, ![50000]⟩ 32) (src dst : IVec ⟨1, ![800000]⟩ 32)

/-- Every entry of the first layer's output is a real number: a maximum of zero and a finite sum of products of reals
    plus a real, the aggregated entries being finite sums of table entries and zeros. -/
theorem hid_real (hemb : IsReal emb) (hW1 : IsReal W1) (hb1 : IsReal b1) (n : Fin 50000) (k : Fin 200) :
    ∃ r : ℝ, hid emb W1 b1 cid src dst n k = (r : EReal) := by
  unfold hid
  refine real_max (real_add (isReal_sum_univ _ fun d => real_mul ?_ (hW1 _)) (hb1 _)) ⟨0, rfl⟩
  unfold agg1
  refine isReal_sum_univ _ fun e => ?_
  split_ifs
  · exact hemb _
  · exact ⟨0, rfl⟩

theorem kerOut_eq_refOut (hemb : IsReal emb) (hW1 : IsReal W1) (hb1 : IsReal b1) (hW2 : IsReal W2)
    (n : Fin 50000) (j : Fin 100) :
    kerOut emb W1 b1 W2 b2 cid src dst n j = refOut emb W1 b1 W2 b2 cid src dst n j := by
  choose h hh using fun m k => hid_real emb W1 b1 cid src dst hemb hW1 hb1 m k
  choose w hw using hW2
  unfold kerOut refOut
  simp only [hh, hw]
  refine congrArg (fun x => max (x + b2 (ix1 j)) 0) ?_
  exact sum_ite_mul_real (fun e : Fin 800000 => (dst (ix1 e)).toInt = (n.val : Int))
    (fun e k => h (node src e) k) (fun k => w (ix2 k j))

end Cert.Gcn

end
-- ==== Proof.lean ====
/-
  The certificate of a two-layer graph convolution: its kernel program runs the two dense stages and the last bias
  and relu as three pipelined kernels, with the second layer's matrix applied to every node's row BEFORE the edges'
  rows are added up, where the reference adds the edges' rows first and applies the matrix after.

  Both programs' result arrays are read index by index as functions of the argument arrays over the extended reals
  (`Cert.Gcn.kerOut` and `Cert.Gcn.refOut`).  The precondition makes every float input real-valued and keeps the node
  numbers of the edge sources and the table words of the nodes inside their tables, so that the kernel program's
  filled takes read the rows the reference's clamped gathers read.  Over real-valued inputs a finite sum of reals times a
  real is the sum of the products, which is the one law between the two sides.
-/
import proofs.«413761_j19774029431051_2_alg».proof.Defs
import proofs.«413761_j19774029431051_2_alg».proof.Proof.Gen.Kernel
import proofs.«413761_j19774029431051_2_alg».proof.Proof.Gen.Kernel.Frame
import proofs.«413761_j19774029431051_2_alg».proof.Proof.Gen.KernelIdeal
import proofs.«413761_j19774029431051_2_alg».proof.Proof.Gen.KernelIdeal.Frame
import proofs.«413761_j19774029431051_2_alg».proof.Proof.Gen.ReferenceIdeal
import proofs.«413761_j19774029431051_2_alg».proof.Proof.Gen.Pre_finite_inputs
import proofs.«413761_j19774029431051_2_alg».proof.Proof.RunValue
import proofs.«413761_j19774029431051_2_alg».proof.Proof.KernelValue
import proofs.«413761_j19774029431051_2_alg».proof.Proof.RefValue
import proofs.«413761_j19774029431051_2_alg».proof.Proof.PreFacts
import proofs.«413761_j19774029431051_2_alg».proof.Proof.SpecLaw
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run_ref m ρ)

/-- Both programs end with the same result array: the kernel program's is `kerOut` of its arguments, the reference's
    `refOut` of the same arrays, and the two agree on real-valued inputs. -/
theorem algebraic : Cert.algebraic_KernelIdeal_ReferenceIdeal := by
  intro m ρ m' ρ' hpre hagree
  have hfacts := fun c => Cert.PreFacts.of_pre _ _ _ _ _ _ _ _ (hpre c)
  refine ⟨fun c => Cert.Gcn.outArr (Cert.Gcn.kerOut (Cert.KernelIdeal.Host.aEmb m c) (Cert.KernelIdeal.Host.aW1 m c)
      (Cert.KernelIdeal.Host.aB1 m c) (Cert.KernelIdeal.Host.aW2 m c) (Cert.KernelIdeal.Host.aB2 m c)
      (Cert.KernelIdeal.Host.aCid m c) (Cert.KernelIdeal.Host.aSrc m c) (Cert.KernelIdeal.Host.aDst m c)), ?_, ?_⟩
  · exact (θ_run Cert.KernelIdeal.defs _ _).mono
      (fun r h c => ⟨(h c).1.trans (Cert.KernelIdeal.KernelValue.result_arr m ρ c (hfacts c).2.2.2.2.2.1 (hfacts c).2.2.2.2.2.2),
        (h c).2⟩)
      (Cert.KernelIdeal.Gen.run_value m ρ)
  · refine (θ_run Cert.ReferenceIdeal.defs _ _).mono (fun r h c => ⟨(h c).1.trans ?_, (h c).2⟩)
      (Cert.ReferenceIdeal.RefValue.run_ref m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact congrArg Cert.Gcn.outArr (funext fun n => funext fun j =>
      (Cert.Gcn.kerOut_eq_refOut _ _ _ _ _ _ _ _ (hfacts c).1 (hfacts c).2.1 (hfacts c).2.2.1 (hfacts c).2.2.2.1 n j).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
